-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x28x28x256 : Shape := ⟨5, ![8, 16, 28, 28, 256]⟩
abbrev S256 : Shape := ⟨1, ![256]⟩
abbrev S256x128x784 : Shape := ⟨3, ![256, 128, 784]⟩
abbrev S_ : Shape := ⟨0, ![]⟩

class Facts : Prop where
  bcast_S_S8x16x28x28x256 : S_.BroadcastsInDim S8x16x28x28x256 (![] : Fin 0 → Fin S8x16x28x28x256.rank)
  reducesTo_S8x16x28x28x256_S_d0_1_2_3_4 : S8x16x28x28x256.ReducesTo [0, 1, 2, 3, 4] S_
  h_S_ : 0 < S_.numel
  bcast_S_S256 : S_.BroadcastsInDim S256 (![] : Fin 0 → Fin S256.rank)
  reducesTo_S256_S_d0 : S256.ReducesTo [0] S_
  bcast_S_S256x128x784 : S_.BroadcastsInDim S256x128x784 (![] : Fin 0 → Fin S256x128x784.rank)
  reducesTo_S256x128x784_S_d0_1_2 : S256x128x784.ReducesTo [0, 1, 2] S_

variable [Facts]

def fn_part1 {F : FTy → Type} [FloatOps F] (main_v13 : IVec S_ 1) (main_v16 : IVec S256x128x784 1) : IVec S_ 1 :=
  let main_c_5 : IVec S_ 1 := constantI S_ 1 1#1
  let main_v17 : IVec S_ 1 := (fun x v => Host.reduce IntOp.andi x v reducesTo_S256x128x784_S_d0_1_2 h_S_) main_v16 main_c_5
  let main_v18 : IVec S_ 1 := andi main_v13 main_v17
  main_v18

def fn {F : FTy → Type} [FloatOps F] (main_arg0 : FVec F S8x16x28x28x256 .f32) (main_arg1 : FVec F S256 .f32) (main_arg2 : FVec F S256 .f32) (main_arg3 : FVec F S256x128x784 .f32) : IVec S_ 1 :=
  let main_v0 : FVec F S8x16x28x28x256 .f32 := Host.absf main_arg0
  let main_cst : FVec F S_ .f32 := constant S_ .f32 0x7F800000#32
  let main_v1 : FVec F S8x16x28x28x256 .f32 := broadcastInDim S8x16x28x28x256 ![] bcast_S_S8x16x28x28x256 main_cst
  let main_v2 : IVec S8x16x28x28x256 1 := cmpf .olt main_v0 main_v1
  let main_c : IVec S_ 1 := constantI S_ 1 1#1
  let main_v3 : IVec S_ 1 := (fun x v => Host.reduce IntOp.andi x v reducesTo_S8x16x28x28x256_S_d0_1_2_3_4 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128x784 .f32 := Host.absf main_arg3
  let main_cst_4 : FVec F S_ .f32 := constant S_ .f32 0x7F800000#32
  let main_v15 : FVec F S256x128x784 .f32 := broadcastInDim S256x128x784 ![] bcast_S_S256x128x784 main_cst_4
  let main_v16 : IVec S256x128x784 1 := cmpf .olt main_v14 main_v15
  fn_part1 (F := F) main_v13 main_v16
-- ==== Kernel.lean ====
abbrev S8x16x28x28x256 : Shape := ⟨5, ![8, 16, 28, 28, 256]⟩
abbrev S256 : Shape := ⟨1, ![256]⟩
abbrev S256x128x784 : Shape := ⟨3, ![256, 128, 784]⟩
abbrev S1x256 : Shape := ⟨2, ![1, 256]⟩
abbrev S1x8x28x28x256 : Shape := ⟨5, ![1, 8, 28, 28, 256]⟩
abbrev S256x8x784 : Shape := ⟨3, ![256, 8, 784]⟩
abbrev S8x28x28x256 : Shape := ⟨4, ![8, 28, 28, 256]⟩
abbrev S8x28x28 : Shape := ⟨3, ![8, 28, 28]⟩
abbrev S8x28x28x1 : Shape := ⟨4, ![8, 28, 28, 1]⟩
abbrev S1x1x1x256 : Shape := ⟨4, ![1, 1, 1, 256]⟩
abbrev S256x8x28x28 : Shape := ⟨4, ![256, 8, 28, 28]⟩
abbrev S8x16x256x128 : Shape := ⟨4, ![8, 16, 256, 128]⟩
abbrev S8x128x784 : Shape := ⟨3, ![8, 128, 784]⟩
abbrev S8x16x8x128 : Shape := ⟨4, ![8, 16, 8, 128]⟩
abbrev S8x128x128 : Shape := ⟨3, ![8, 128, 128]⟩
abbrev S8x128 : Shape := ⟨2, ![8, 128]⟩
abbrev S8x128x1 : Shape := ⟨3, ![8, 128, 1]⟩
abbrev S8x1x128 : Shape := ⟨3, ![8, 1, 128]⟩
abbrev S8x8x16x128 : Shape := ⟨4, ![8, 8, 16, 128]⟩
abbrev S8x16x8 : Shape := ⟨3, ![8, 16, 8]⟩
abbrev S8x16x8x1 : Shape := ⟨4, ![8, 16, 8, 1]⟩
abbrev S256x128x128 : Shape := ⟨3, ![256, 128, 128]⟩

abbrev nBuf : Space → Nat
  | .hbm => 10
  | .vmem => 18
  | .smem => 0
  | _ => 0

abbrev bufTy : (tb : Table) → Fin (tcTables nBuf tb) → BufTy
  | .hbm, ⟨0, _⟩ => ⟨S8x16x28x28x256, .f32⟩
  | .hbm, ⟨1, _⟩ => ⟨S256, .f32⟩
  | .hbm, ⟨2, _⟩ => ⟨S256, .f32⟩
  | .hbm, ⟨3, _⟩ => ⟨S256x128x784, .f32⟩
  | .hbm, ⟨4, _⟩ => ⟨S1x256, .f32⟩
  | .hbm, ⟨5, _⟩ => ⟨S1x256, .f32⟩
  | .hbm, ⟨6, _⟩ => ⟨S256x128x784, .f32⟩
  | .hbm, ⟨7, _⟩ => ⟨S8x16x256x128, .f32⟩
  | .hbm, ⟨8, _⟩ => ⟨S8x16x256x128, .f32⟩
  | .hbm, ⟨9, _⟩ => ⟨S256x128x128, .f32⟩
  | .local _ .vmem, ⟨0, _⟩ => ⟨S1x8x28x28x256, .f32⟩
  | .local _ .vmem, ⟨1, _⟩ => ⟨S1x8x28x28x256, .f32⟩
  | .local _ .vmem, ⟨2, _⟩ => ⟨S1x256, .f32⟩
  | .local _ .vmem, ⟨3, _⟩ => ⟨S1x256, .f32⟩
  | .local _ .vmem, ⟨4, _⟩ => ⟨S256x8x784, .f32⟩
  | .local _ .vmem, ⟨5, _⟩ => ⟨S256x8x784, .f32⟩
  | .local _ .vmem, ⟨6, _⟩ => ⟨S8x128x784, .f32⟩
  | .local _ .vmem, ⟨7, _⟩ => ⟨S8x128x784, .f32⟩
  | .local _ .vmem, ⟨8, _⟩ => ⟨S8x128x784, .f32⟩
  | .local _ .vmem, ⟨9, _⟩ => ⟨S8x128x784, .f32⟩
  | .local _ .vmem, ⟨10, _⟩ => ⟨S8x16x8x128, .f32⟩
  | .local _ .vmem, ⟨11, _⟩ => ⟨S8x16x8x128, .f32⟩
  | .local _ .vmem, ⟨12, _⟩ => ⟨S8x16x8x128, .f32⟩
  | .local _ .vmem, ⟨13, _⟩ => ⟨S8x16x8x128, .f32⟩
  | .local _ .vmem, ⟨14, _⟩ => ⟨S8x128x784, .f32⟩
  | .local _ .vmem, ⟨15, _⟩ => ⟨S8x128x784, .f32⟩
  | .local _ .vmem, ⟨16, _⟩ => ⟨S8x128x128, .f32⟩
  | .local _ .vmem, ⟨17, _⟩ => ⟨S8x128x128, .f32⟩
  | _, _ => ⟨S8x16x28x28x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x8x28x28x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x8x784 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage1_0 : Fin 2 → Memref sig .tc .vmem S8x128x784 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x128x784 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x16x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x16x8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S8x128x784 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  shapeCasts_S256_S1x256 : S256.ShapeCasts S1x256
  inb_S1x8x28x28x256_S1x8x28x28x256_0_0_0_0_0 : ∀ a, (![0, 0, 0, 0, 0] : Fin 5 → Nat) a + S1x8x28x28x256.size a ≤ S1x8x28x28x256.size a
  h_S1x8x28x28x256 : 0 < S1x8x28x28x256.numel
  shapeCasts_S1x8x28x28x256_S8x28x28x256 : S1x8x28x28x256.ShapeCasts S8x28x28x256
  reduces_S8x28x28x256_S8x28x28 : S8x28x28x256.Reduces [3] S8x28x28
  shapeCasts_S8x28x28_S8x28x28x1 : S8x28x28.ShapeCasts S8x28x28x1
  broadcasts_S8x28x28x1_S8x28x28x256 : S8x28x28x1.Broadcasts S8x28x28x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x1x256 : S1x256.ShapeCasts S1x1x1x256
  broadcasts_S1x1x1x256_S8x28x28x256 : S1x1x1x256.Broadcasts S8x28x28x256
  transposes_S8x28x28x256_p3_0_1_2_S256x8x28x28 : S8x28x28x256.Transposes [3, 0, 1, 2] S256x8x28x28
  shapeCasts_S256x8x28x28_S256x8x784 : S256x8x28x28.ShapeCasts S256x8x784
  inb_S256x8x784_S256x8x784_0_0_0 : ∀ a, (![0, 0, 0] : Fin 3 → Nat) a + S256x8x784.size a ≤ S256x8x784.size a
  h_S256x8x784 : 0 < S256x8x784.numel
  inb_S8x128x784_S8x128x784_0_0_0 : ∀ a, (![0, 0, 0] : Fin 3 → Nat) a + S8x128x784.size a ≤ S8x128x784.size a
  h_S8x128x784 : 0 < S8x128x784.numel
  shapeCasts_S8x128x784_S8x128x784 : S8x128x784.ShapeCasts S8x128x784
  bitsLt_bf16_f32 : FTy.bits .bf16 < FTy.bits .f32
  reduces_S8x128x784_S8x128 : S8x128x784.Reduces [2] S8x128
  shapeCasts_S8x128_S8x128x1 : S8x128.ShapeCasts S8x128x1
  shapeCasts_S8x128_S8x1x128 : S8x128.ShapeCasts S8x1x128
  broadcasts_S8x128x1_S8x128x128 : S8x128x1.Broadcasts S8x128x128
  broadcasts_S8x1x128_S8x128x128 : S8x1x128.Broadcasts S8x128x128
  shapeCasts_S8x128x128_S8x8x16x128 : S8x128x128.ShapeCasts S8x8x16x128
  transposes_S8x8x16x128_p1_2_0_3_S8x16x8x128 : S8x8x16x128.Transposes [1, 2, 0, 3] S8x16x8x128
  inb_S8x16x8x128_S8x16x8x128_0_0_0_0 : ∀ a, (![0, 0, 0, 0] : Fin 4 → Nat) a + S8x16x8x128.size a ≤ S8x16x8x128.size a
  h_S8x16x8x128 : 0 < S8x16x8x128.numel
  reduces_S8x16x8x128_S8x16x8 : S8x16x8x128.Reduces [3] S8x16x8
  shapeCasts_S8x16x8_S8x16x8x1 : S8x16x8.ShapeCasts S8x16x8x1
  broadcasts_S8x16x8x1_S8x16x8x128 : S8x16x8x1.Broadcasts S8x16x8x128
  inb_S8x128x128_S8x128x128_0_0_0 : ∀ a, (![0, 0, 0] : Fin 3 → Nat) a + S8x128x128.size a ≤ S8x128x128.size a
  h_S8x128x128 : 0 < S8x128x128.numel
  dot_S8x128x784_S8x128x784_S8x128x128_2_2_1_1_0_0_wf : DotDims.WF S8x128x784 S8x128x784 S8x128x128 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x28x28x256.size a ≤ S8x16x28x28x256.size a
  hwx0_0 : ∀ i : grid0.Coords, EltTy.bits .f32 = 32 ∨ (Rect.block (s := S8x16x28x28x256) S1x8x28x28x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8x784.size a ≤ S256x128x784.size a
  hwx0_3 : ∀ i : grid0.Coords, EltTy.bits .f32 = 32 ∨ (Rect.block (s := S256x128x784) S256x8x784.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x784.size a ≤ S256x128x784.size a
  hwx1_0 : ∀ i : grid1.Coords, EltTy.bits .f32 = 32 ∨ (Rect.block (s := S256x128x784) S8x128x784.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128x784.size a ≤ S256x128x784.size a
  hwx1_1 : ∀ i : grid1.Coords, EltTy.bits .f32 = 32 ∨ (Rect.block (s := S256x128x784) S8x128x784.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x16x8x128.size a ≤ S8x16x256x128.size a
  hwx1_2 : ∀ i : grid1.Coords, EltTy.bits .f32 = 32 ∨ (Rect.block (s := S8x16x256x128) S8x16x8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x16x8x128.size a ≤ S8x16x256x128.size a
  hwx1_3 : ∀ i : grid1.Coords, EltTy.bits .f32 = 32 ∨ (Rect.block (s := S8x16x256x128) S8x16x8x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x128x784.size a ≤ S256x128x784.size a
  hwx2_0 : ∀ i : grid2.Coords, EltTy.bits .f32 = 32 ∨ (Rect.block (s := S256x128x784) S8x128x784.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x128x128.size a ≤ S256x128x128.size a
  hwx2_1 : ∀ i : grid2.Coords, EltTy.bits .f32 = 32 ∨ (Rect.block (s := S256x128x128) S8x128x128.size (cc2_transform_1 i) (hinb2_1 i)).WholeWords (EltTy.packing .f32)

variable [Facts₀]

def dot_S8x128x784_S8x128x784_S8x128x128_2_2_1_1_0_0 : DotDims S8x128x784 S8x128x784 S8x128x128 where
  lhsContracting := [2]
  rhsContracting := [2]
  lhsNonContracting := [1]
  rhsNonContracting := [1]
  lhsBatch := [0]
  rhsBatch := [0]
  wf := dot_S8x128x784_S8x128x784_S8x128x128_2_2_1_1_0_0_wf

abbrev win0_0 : Pipeline.Window sig grid0 :=
  Pipeline.Window.ofSpec (Memref.whole main_arg0) S1x8x28x28x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x8x784.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S8x128x784.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S8x128x784.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S8x16x8x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S8x16x8x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg3) S8x128x784.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S8x128x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S8x16x28x28x256 : Shape := ⟨5, ![8, 16, 28, 28, 256]⟩
abbrev S256 : Shape := ⟨1, ![256]⟩
abbrev S256x128x784 : Shape := ⟨3, ![256, 128, 784]⟩
abbrev S_ : Shape := ⟨0, ![]⟩
abbrev S8x16x28x28 : Shape := ⟨4, ![8, 16, 28, 28]⟩
abbrev S8x16x28x28x1 : Shape := ⟨5, ![8, 16, 28, 28, 1]⟩
abbrev S1x1x1x1x256 : Shape := ⟨5, ![1, 1, 1, 1, 256]⟩
abbrev S256x8x16x28x28 : Shape := ⟨5, ![256, 8, 16, 28, 28]⟩
abbrev S256x128 : Shape := ⟨2, ![256, 128]⟩
abbrev S256x128x1 : Shape := ⟨3, ![256, 128, 1]⟩
abbrev S256x1x128 : Shape := ⟨3, ![256, 1, 128]⟩
abbrev S256x128x128 : Shape := ⟨3, ![256, 128, 128]⟩
abbrev S256x8x16x128 : Shape := ⟨4, ![256, 8, 16, 128]⟩
abbrev S8x16x256x128 : Shape := ⟨4, ![8, 16, 256, 128]⟩
abbrev S8x16x256 : Shape := ⟨3, ![8, 16, 256]⟩
abbrev S8x16x256x1 : Shape := ⟨4, ![8, 16, 256, 1]⟩

abbrev nBuf : Space → Nat
  | .hbm => 94
  | .vmem => 0
  | .smem => 0
  | _ => 0

abbrev bufTy : (tb : Table) → Fin (tcTables nBuf tb) → BufTy
  | .hbm, ⟨0, _⟩ => ⟨S8x16x28x28x256, .f32⟩
  | .hbm, ⟨1, _⟩ => ⟨S256, .f32⟩
  | .hbm, ⟨2, _⟩ => ⟨S256, .f32⟩
  | .hbm, ⟨3, _⟩ => ⟨S256x128x784, .f32⟩
  | .hbm, ⟨4, _⟩ => ⟨S_, .f32⟩
  | .hbm, ⟨5, _⟩ => ⟨S8x16x28x28, .f32⟩
  | .hbm, ⟨6, _⟩ => ⟨S8x16x28x28x1, .f32⟩
  | .hbm, ⟨7, _⟩ => ⟨S_, .f32⟩
  | .hbm, ⟨8, _⟩ => ⟨S8x16x28x28x1, .f32⟩
  | .hbm, ⟨9, _⟩ => ⟨S8x16x28x28x1, .f32⟩
  | .hbm, ⟨10, _⟩ => ⟨S8x16x28x28x256, .f32⟩
  | .hbm, ⟨11, _⟩ => ⟨S8x16x28x28x256, .f32⟩
  | .hbm, ⟨12, _⟩ => ⟨S8x16x28x28x256, .f32⟩
  | .hbm, ⟨13, _⟩ => ⟨S_, .f32⟩
  | .hbm, ⟨14, _⟩ => ⟨S8x16x28x28, .f32⟩
  | .hbm, ⟨15, _⟩ => ⟨S8x16x28x28x1, .f32⟩
  | .hbm, ⟨16, _⟩ => ⟨S_, .f32⟩
  | .hbm, ⟨17, _⟩ => ⟨S8x16x28x28x1, .f32⟩
  | .hbm, ⟨18, _⟩ => ⟨S8x16x28x28x1, .f32⟩
  | .hbm, ⟨19, _⟩ => ⟨S8x16x28x28x256, .f32⟩
  | .hbm, ⟨20, _⟩ => ⟨S8x16x28x28x256, .f32⟩
  | .hbm, ⟨21, _⟩ => ⟨S_, .f32⟩
  | .hbm, ⟨22, _⟩ => ⟨S8x16x28x28x1, .f32⟩
  | .hbm, ⟨23, _⟩ => ⟨S8x16x28x28x1, .f32⟩
  | .hbm, ⟨24, _⟩ => ⟨S8x16x28x28x1, .f32⟩
  | .hbm, ⟨25, _⟩ => ⟨S8x16x28x28x256, .f32⟩
  | .hbm, ⟨26, _⟩ => ⟨S8x16x28x28x256, .f32⟩
  | .hbm, ⟨27, _⟩ => ⟨S1x1x1x1x256, .f32⟩
  | .hbm, ⟨28, _⟩ => ⟨S8x16x28x28x256, .f32⟩
  | .hbm, ⟨29, _⟩ => ⟨S8x16x28x28x256, .f32⟩
  | .hbm, ⟨30, _⟩ => ⟨S1x1x1x1x256, .f32⟩
  | .hbm, ⟨31, _⟩ => ⟨S8x16x28x28x256, .f32⟩
  | .hbm, ⟨32, _⟩ => ⟨S8x16x28x28x256, .f32⟩
  | .hbm, ⟨33, _⟩ => ⟨S256x8x16x28x28, .f32⟩
  | .hbm, ⟨34, _⟩ => ⟨S256x128x784, .f32⟩
  | .hbm, ⟨35, _⟩ => ⟨S256x128x784, .f32⟩
  | .hbm, ⟨36, _⟩ => ⟨S_, .f32⟩
  | .hbm, ⟨37, _⟩ => ⟨S256x128, .f32⟩
  | .hbm, ⟨38, _⟩ => ⟨S256x128x1, .f32⟩
  | .hbm, ⟨39, _⟩ => ⟨S256x128x784, .f32⟩
  | .hbm, ⟨40, _⟩ => ⟨S_, .f32⟩
  | .hbm, ⟨41, _⟩ => ⟨S256x128, .f32⟩
  | .hbm, ⟨42, _⟩ => ⟨S256x1x128, .f32⟩
  | .hbm, ⟨43, _⟩ => ⟨S256x128x128, .f32⟩
  | .hbm, ⟨44, _⟩ => ⟨S256x128x128, .f32⟩
  | .hbm, ⟨45, _⟩ => ⟨S256x128x128, .f32⟩
  | .hbm, ⟨46, _⟩ => ⟨S256x128x128, .f32⟩
  | .hbm, ⟨47, _⟩ => ⟨S_, .f32⟩
  | .hbm, ⟨48, _⟩ => ⟨S256x128x128, .f32⟩
  | .hbm, ⟨49, _⟩ => ⟨S256x128x128, .f32⟩
  | .hbm, ⟨50, _⟩ => ⟨S256x128x128, .f32⟩
  | .hbm, ⟨51, _⟩ => ⟨S_, .f32⟩
  | .hbm, ⟨52, _⟩ => ⟨S256x128x128, .f32⟩
  | .hbm, ⟨53, _⟩ => ⟨S256x128x128, .f32⟩
  | .hbm, ⟨54, _⟩ => ⟨S256x128x128, .f32⟩
  | .hbm, ⟨55, _⟩ => ⟨S256x8x16x128, .f32⟩
  | .hbm, ⟨56, _⟩ => ⟨S8x16x256x128, .f32⟩
  | .hbm, ⟨57, _⟩ => ⟨S_, .f32⟩
  | .hbm, ⟨58, _⟩ => ⟨S8x16x256x128, .f32⟩
  | .hbm, ⟨59, _⟩ => ⟨S8x16x256x128, .f32⟩
  | .hbm, ⟨60, _⟩ => ⟨S_, .f32⟩
  | .hbm, ⟨61, _⟩ => ⟨S8x16x256, .f32⟩
  | .hbm, ⟨62, _⟩ => ⟨S_, .f32⟩
  | .hbm, ⟨63, _⟩ => ⟨S8x16x256, .f32⟩
  | .hbm, ⟨64, _⟩ => ⟨S8x16x256, .f32⟩
  | .hbm, ⟨65, _⟩ => ⟨S8x16x256x1, .f32⟩
  | .hbm, ⟨66, _⟩ => ⟨S8x16x256x128, .f32⟩
  | .hbm, ⟨67, _⟩ => ⟨S8x16x256x128, .f32⟩
  | .hbm, ⟨68, _⟩ => ⟨S8x16x256x128, .f32⟩
  | .hbm, ⟨69, _⟩ => ⟨S_, .f32⟩
  | .hbm, ⟨70, _⟩ => ⟨S8x16x256, .f32⟩
  | .hbm, ⟨71, _⟩ => ⟨S8x16x256x1, .f32⟩
  | .hbm, ⟨72, _⟩ => ⟨S8x16x256x128, .f32⟩
  | .hbm, ⟨73, _⟩ => ⟨S8x16x256x128, .f32⟩
  | .hbm, ⟨74, _⟩ => ⟨S256x128x784, .f32⟩
  | .hbm, ⟨75, _⟩ => ⟨S_, .f32⟩
  | .hbm, ⟨76, _⟩ => ⟨S256x128, .f32⟩
  | .hbm, ⟨77, _⟩ => ⟨S256x128x1, .f32⟩
  | .hbm, ⟨78, _⟩ => ⟨S256x128x784, .f32⟩
  | .hbm, ⟨79, _⟩ => ⟨S_, .f32⟩
  | .hbm, ⟨80, _⟩ => ⟨S256x128, .f32⟩
  | .hbm, ⟨81, _⟩ => ⟨S256x1x128, .f32⟩
  | .hbm, ⟨82, _⟩ => ⟨S256x128x128, .f32⟩
  | .hbm, ⟨83, _⟩ => ⟨S256x128x128, .f32⟩
  | .hbm, ⟨84, _⟩ => ⟨S256x128x128, .f32⟩
  | .hbm, ⟨85, _⟩ => ⟨S256x128x128, .f32⟩
  | .hbm, ⟨86, _⟩ => ⟨S_, .f32⟩
  | .hbm, ⟨87, _⟩ => ⟨S256x128x128, .f32⟩
  | .hbm, ⟨88, _⟩ => ⟨S256x128x128, .f32⟩
  | .hbm, ⟨89, _⟩ => ⟨S256x128x128, .f32⟩
  | .hbm, ⟨90, _⟩ => ⟨S_, .f32⟩
  | .hbm, ⟨91, _⟩ => ⟨S256x128x128, .f32⟩
  | .hbm, ⟨92, _⟩ => ⟨S256x128x128, .f32⟩
  | .hbm, ⟨93, _⟩ => ⟨S256x128x128, .f32⟩
  | _, _ => ⟨S8x16x28x28x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_13 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_15 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩

abbrev nD : Nat := 1
abbrev τ : Topo := Topo.v7x

variable {F : FTy → Type} [FloatOps F]

class Facts₀ : Prop where
  reducesTo_S8x16x28x28x256_S8x16x28x28_d4 : S8x16x28x28x256.ReducesTo [4] S8x16x28x28
  h_S_ : 0 < S_.numel
  bcast_S8x16x28x28_S8x16x28x28x1_0_1_2_3 : S8x16x28x28.BroadcastsInDim S8x16x28x28x1 (![0, 1, 2, 3] : Fin 4 → Fin S8x16x28x28x1.rank)
  bcast_S_S8x16x28x28x1 : S_.BroadcastsInDim S8x16x28x28x1 (![] : Fin 0 → Fin S8x16x28x28x1.rank)
  bcast_S8x16x28x28x1_S8x16x28x28x256_0_1_2_3_4 : S8x16x28x28x1.BroadcastsInDim S8x16x28x28x256 (![0, 1, 2, 3, 4] : Fin 5 → Fin S8x16x28x28x256.rank)
  bcast_S256_S1x1x1x1x256_4 : S256.BroadcastsInDim S1x1x1x1x256 (![4] : Fin 1 → Fin S1x1x1x1x256.rank)
  bcast_S1x1x1x1x256_S8x16x28x28x256_0_1_2_3_4 : S1x1x1x1x256.BroadcastsInDim S8x16x28x28x256 (![0, 1, 2, 3, 4] : Fin 5 → Fin S8x16x28x28x256.rank)
  transposes_S8x16x28x28x256_S256x8x16x28x28_4_0_1_2_3 : S8x16x28x28x256.Transposes [4, 0, 1, 2, 3] S256x8x16x28x28
  shapeCasts_S256x8x16x28x28_S256x128x784 : S256x8x16x28x28.ShapeCasts S256x128x784
  reducesTo_S256x128x784_S256x128_d2 : S256x128x784.ReducesTo [2] S256x128
  bcast_S256x128_S256x128x1_0_1 : S256x128.BroadcastsInDim S256x128x1 (![0, 1] : Fin 2 → Fin S256x128x1.rank)
  bcast_S256x128_S256x1x128_0_2 : S256x128.BroadcastsInDim S256x1x128 (![0, 2] : Fin 2 → Fin S256x1x128.rank)
  bcast_S256x128x1_S256x128x128_0_1_2 : S256x128x1.BroadcastsInDim S256x128x128 (![0, 1, 2] : Fin 3 → Fin S256x128x128.rank)
  bcast_S256x1x128_S256x128x128_0_1_2 : S256x1x128.BroadcastsInDim S256x128x128 (![0, 1, 2] : Fin 3 → Fin S256x128x128.rank)
  bcast_S_S256x128x128 : S_.BroadcastsInDim S256x128x128 (![] : Fin 0 → Fin S256x128x128.rank)
  shapeCasts_S256x128x128_S256x8x16x128 : S256x128x128.ShapeCasts S256x8x16x128
  transposes_S256x8x16x128_S8x16x256x128_1_2_0_3 : S256x8x16x128.Transposes [1, 2, 0, 3] S8x16x256x128
  bcast_S_S8x16x256x128 : S_.BroadcastsInDim S8x16x256x128 (![] : Fin 0 → Fin S8x16x256x128.rank)
  reducesTo_S8x16x256x128_S8x16x256_d3 : S8x16x256x128.ReducesTo [3] S8x16x256
  bcast_S_S8x16x256 : S_.BroadcastsInDim S8x16x256 (![] : Fin 0 → Fin S8x16x256.rank)
  bcast_S8x16x256_S8x16x256x1_0_1_2 : S8x16x256.BroadcastsInDim S8x16x256x1 (![0, 1, 2] : Fin 3 → Fin S8x16x256x1.rank)
  bcast_S8x16x256x1_S8x16x256x128_0_1_2_3 : S8x16x256x1.BroadcastsInDim S8x16x256x128 (![0, 1, 2, 3] : Fin 4 → Fin S8x16x256x128.rank)
  dot_S256x128x784_S256x128x784_S256x128x128_2_2_1_1_0_0_wf : DotDims.WF S256x128x784 S256x128x784 S256x128x128 [2] [2] [1] [1] [0] [0]

variable [Facts₀]

def dot_S256x128x784_S256x128x784_S256x128x128_2_2_1_1_0_0 : DotDims S256x128x784 S256x128x784 S256x128x128 where
  lhsContracting := [2]
  rhsContracting := [2]
  lhsNonContracting := [1]
  rhsNonContracting := [1]
  lhsBatch := [0]
  rhsBatch := [0]
  wf := dot_S256x128x784_S256x128x784_S256x128x128_2_2_1_1_0_0_wf

class Facts : Prop extends Facts₀ where

variable [Facts]
-- ==== Proof.Spec.lean ====
/-
  The mathematics both programs compute, written once over the extended reals, index by index.

  A feature row r of 256 entries is layer-normalised: with mean mu = (sum r) / 256 and variance
  var = (sum (r - mu)^2) / 256, entry c becomes (r c - mu) * rsqrt (var + eps) * w c + b c.
  The normalised input, laid out with the feature axis first and the two pairs of axes (batch, depth) and
  (height, width) merged row-major, is the array called xre below.
  The distance of two rows a, b of 784 entries is sqrt (max (|a|^2 + |b|^2 - 2 <a, b>) eps'), every sum over
  the 784 entries.  A row v of 128 distances is turned into weights by the softmax of -32 v, taken the usual
  way: subtract the row's maximum, exponentiate, divide by the sum.
  The float literals are kept as the binary values both programs print; none of them is ever evaluated.
-/
import Idealize.ShloMosaic.PureOps.Ideal
import Idealize.ShloMosaic.Lib.ValueIdx

noncomputable section

namespace Cert.Spec

open Idealize.ShloMosaic Idealize.ShloMosaic.ValueIdx

/-- The input x: (batch, depth, height, width, feature). -/
abbrev SX : Shape := ⟨5, ![8, 16, 28, 28, 256]⟩
/-- The normalised input re-laid, and the cluster centres: (feature, row, position). -/
abbrev SA : Shape := ⟨3, ![256, 128, 784]⟩
/-- Distances from the input's rows to the centres: (batch, depth, feature, centre). -/
abbrev SD : Shape := ⟨4, ![8, 16, 256, 128]⟩
/-- Distances among the centres: (feature, centre, centre). -/
abbrev SC : Shape := ⟨3, ![256, 128, 128]⟩

/-- 256, the length of a feature row. -/
abbrev c256 : EReal := Ideal.ofBits .f32 0x43800000#32
/-- The layer norm's epsilon. -/
abbrev epsLn : EReal := Ideal.ofBits .f32 0x3727C5AC#32
/-- 2, the factor of the cross term. -/
abbrev two : EReal := Ideal.ofBits .f32 0x40000000#32
/-- The floor under a squared distance. -/
abbrev epsD : EReal := Ideal.ofBits .f32 0x2B8CBCCC#32
/-- -32, the softmax's scale. -/
abbrev negAlpha : EReal := Ideal.ofBits .f32 0xC2000000#32
/-- -infinity, where a running maximum starts. -/
abbrev negInf : EReal := Ideal.ofBits .f32 0xFF800000#32

/-- The mean of a feature row. -/
def mean (r : Fin 256 → EReal) : EReal := Ideal.div (∑ k, r k) c256

/-- Entry c of the layer-normalised feature row r under weight w and bias b. -/
def lnRow (r w b : Fin 256 → EReal) (c : Fin 256) : EReal :=
  (r c - mean r) * Ideal.rsqrt (Ideal.div (∑ k, (r k - mean r) * (r k - mean r)) c256 + epsLn) * w c + b c

/-- The distance of two rows of 784 entries, floored. -/
def dist (a b : Fin 784 → EReal) : EReal :=
  Ideal.sqrt (max ((∑ k, a k * a k) + (∑ k, b k * b k) - two * ∑ k, a k * b k) epsD)

/-- The shifted exponent of entry n of the row -32 v: the entry less the row's maximum. -/
def shifted (v : Fin 128 → EReal) (n : Fin 128) : EReal :=
  negAlpha * v n - max negInf ((Finset.univ : Finset (Fin 128)).fold max negInf fun k => negAlpha * v k)

/-- Entry n of the softmax of -32 v. -/
def softRow (v : Fin 128 → EReal) (n : Fin 128) : EReal :=
  Ideal.div (Ideal.exp (shifted v n)) (∑ j, Ideal.exp (shifted v j))

/-- The normalised input with the feature axis first: entry (c, m, s) is feature c of the normalised row at
    batch m / 16, depth m % 16, height s / 28, width s % 28. -/
def xre (X : SX.Idx → EReal) (w b : Fin 256 → EReal) : SA.Idx → EReal := fun i =>
  lnRow (fun k => X (ix5 (⟨(i 1).val / 16, by have h : (i 1).val < 128 := (i 1).isLt; omega⟩ : Fin 8)
      (⟨(i 1).val % 16, by omega⟩ : Fin 16)
      (⟨(i 2).val / 28, by have h : (i 2).val < 784 := (i 2).isLt; omega⟩ : Fin 28)
      (⟨(i 2).val % 28, by omega⟩ : Fin 28) k)) w b ⟨(i 0).val, (i 0).isLt⟩

/-- Entry (c, m, n): the distance of row m of A to row n of B, in feature c. -/
def cdist (A B : SA.Idx → EReal) : SC.Idx → EReal := fun i =>
  dist (fun k => A (ix3 (⟨(i 0).val, (i 0).isLt⟩ : Fin 256) (⟨(i 1).val, (i 1).isLt⟩ : Fin 128) k))
    (fun k => B (ix3 (⟨(i 0).val, (i 0).isLt⟩ : Fin 256) (⟨(i 2).val, (i 2).isLt⟩ : Fin 128) k))

/-- Entry (p, q, c, n): the distance of row 16 p + q of A to row n of B, in feature c. -/
def xdist (A B : SA.Idx → EReal) : SD.Idx → EReal := fun i =>
  dist (fun k => A (ix3 (⟨(i 2).val, (i 2).isLt⟩ : Fin 256)
      (⟨(i 0).val * 16 + (i 1).val, by have h0 : (i 0).val < 8 := (i 0).isLt; have h1 : (i 1).val < 16 := (i 1).isLt; omega⟩ : Fin 128) k))
    (fun k => B (ix3 (⟨(i 2).val, (i 2).isLt⟩ : Fin 256) (⟨(i 3).val, (i 3).isLt⟩ : Fin 128) k))

/-- Entry (p, q, c, n): the softmax weight of centre n among the 128 distances of row (p, q, c). -/
def assign (A B : SA.Idx → EReal) : SD.Idx → EReal := fun i =>
  softRow (fun n => xdist A B (ix4 (⟨(i 0).val, (i 0).isLt⟩ : Fin 8) (⟨(i 1).val, (i 1).isLt⟩ : Fin 16)
      (⟨(i 2).val, (i 2).isLt⟩ : Fin 256) n)) ⟨(i 3).val, (i 3).isLt⟩

end Cert.Spec

end
-- ==== Proof.PayLn.lean ====
/-
  The layer-norm kernel's stored value, read at an index.
  The body normalises each feature row of its block, moves the feature axis to the front and merges height and
  width row-major; at (c, d, s) that is entry c of the normalised feature row at depth d, height s / 28, width s % 28.
-/
import proofs.«169970_j21612275434146_1_alg».proof.Proof.Gen.KernelIdeal.Skeleton
import proofs.«169970_j21612275434146_1_alg».proof.Proof.Spec
import Idealize.ShloMosaic.Lib.ValueIdx
import Idealize.ShloMosaic.Lib.Pipeline.Value
import Idealize.ShloMosaic.PureOps.Ideal.Laws

noncomputable section

namespace Cert.KernelIdeal.PayLn

open Idealize.ShloMosaic Idealize.ShloMosaic.ValueIdx Cert.KernelIdeal Cert.KernelIdeal.Gen

section Reads
variable {α : Type}

/-- Dropping the leading unit axis of the block: entry (d, h, w, k) is entry (0, d, h, w, k). -/
private theorem drop_apply (x : S1x8x28x28x256.Idx → α) (hc : S1x8x28x28x256.ShapeCasts S8x28x28x256)
    (d : Fin 8) (h w : Fin 28) (k : Fin 256) :
    shapeCast S8x28x28x256 x hc (ix4 d h w k) = x (ix5 (0 : Fin 1) d h w k) := by
  refine shapeCast_apply x hc _ _ ?_
  rw [Shape.rowMajor_val_five, Shape.rowMajor_val_four]
  show ((((0 * 8 + d.val) * 28 + h.val) * 28 + w.val) * 256 + k.val) = ((d.val * 28 + h.val) * 28 + w.val) * 256 + k.val
  omega

/-- Adding a trailing unit axis: entry (d, h, w, 0) is entry (d, h, w). -/
private theorem col_apply (z : S8x28x28.Idx → α) (hc : S8x28x28.ShapeCasts S8x28x28x1)
    (d : Fin 8) (h w : Fin 28) :
    shapeCast S8x28x28x1 z hc (ix4 d h w (0 : Fin 1)) = z (ix3 d h w) := by
  refine shapeCast_apply z hc _ _ ?_
  rw [Shape.rowMajor_val_three, Shape.rowMajor_val_four]
  show (d.val * 28 + h.val) * 28 + w.val = ((d.val * 28 + h.val) * 28 + w.val) * 1 + 0
  omega

/-- A column broadcast along the feature axis reads the column's entry. -/
private theorem bcol_apply (z : S8x28x28x1.Idx → α) (hb : S8x28x28x1.Broadcasts S8x28x28x256)
    (d : Fin 8) (h w : Fin 28) (k : Fin 256) :
    broadcastTo S8x28x28x256 z hb (ix4 d h w k) = z (ix4 d h w (0 : Fin 1)) := by
  refine broadcastTo_apply z hb _ _ fun a => ?_
  match a with
  | ⟨0, _⟩ => rfl
  | ⟨1, _⟩ => rfl
  | ⟨2, _⟩ => rfl
  | ⟨3, _⟩ => rfl

/-- A feature row broadcast along depth, height and width reads the row's entry. -/
private theorem brow_apply (z : S1x1x1x256.Idx → α) (hb : S1x1x1x256.Broadcasts S8x28x28x256)
    (d : Fin 8) (h w : Fin 28) (k : Fin 256) :
    broadcastTo S8x28x28x256 z hb (ix4 d h w k) = z (ix4 (0 : Fin 1) (0 : Fin 1) (0 : Fin 1) k) := by
  refine broadcastTo_apply z hb _ _ fun a => ?_
  match a with
  | ⟨0, _⟩ => rfl
  | ⟨1, _⟩ => rfl
  | ⟨2, _⟩ => rfl
  | ⟨3, _⟩ => rfl

/-- The loaded row viewed with three leading unit axes: entry (0, 0, 0, k) is entry (0, k). -/
private theorem row_apply (r : S1x256.Idx → α) (h1 : S1x256.ShapeCasts S1x256) (h2 : S1x256.ShapeCasts S1x1x1x256)
    (k : Fin 256) :
    shapeCast S1x1x1x256 (shapeCast S1x256 r h1) h2 (ix4 (0 : Fin 1) (0 : Fin 1) (0 : Fin 1) k) = r (ix2 (0 : Fin 1) k) := by
  rw [shapeCast_self]
  refine shapeCast_apply r h2 _ _ ?_
  rw [Shape.rowMajor_val_two, Shape.rowMajor_val_four]
  show 0 * 256 + k.val = ((0 * 1 + 0) * 1 + 0) * 256 + k.val
  omega

/-- The feature axis moved to the front: entry (c, d, h, w) is entry (d, h, w, c). -/
private theorem tr_apply (y : S8x28x28x256.Idx → α) (ht : S8x28x28x256.Transposes [3, 0, 1, 2] S256x8x28x28)
    (c : Fin 256) (d : Fin 8) (h w : Fin 28) :
    transpose S256x8x28x28 [3, 0, 1, 2] y ht (ix4 c d h w) = y (ix4 d h w c) := by
  refine transpose_apply _ y ht _ _ fun b => ?_
  match b with
  | ⟨0, _⟩ => rfl
  | ⟨1, _⟩ => rfl
  | ⟨2, _⟩ => rfl
  | ⟨3, _⟩ => rfl

/-- Height and width merged row-major: entry (c, d, s) is entry (c, d, s / 28, s % 28). -/
private theorem merge_apply (y : S256x8x28x28.Idx → α) (hc : S256x8x28x28.ShapeCasts S256x8x784)
    (c : Fin 256) (d : Fin 8) (s : Fin 784) :
    shapeCast S256x8x784 y hc (ix3 c d s)
      = y (ix4 c d (⟨s.val / 28, by have := s.isLt; omega⟩ : Fin 28) (⟨s.val % 28, by omega⟩ : Fin 28)) := by
  refine shapeCast_apply y hc _ _ ?_
  rw [Shape.rowMajor_val_three, Shape.rowMajor_val_four]
  show ((c.val * 8 + d.val) * 28 + s.val / 28) * 28 + s.val % 28 = (c.val * 8 + d.val) * 784 + s.val
  omega

end Reads

/-- A sum along the feature axis, read at (d, h, w): the sum of the 256 entries of that feature row. -/
private theorem sum_apply (y : FVec Ideal S8x28x28x256 .f32) (hr : S8x28x28x256.Reduces [3] S8x28x28)
    (hφ : FKind.Formats .f32) (hacc : (0x00000000#32 : BitVec 32) = FKind.add.neutral .f32 hφ)
    (d : Fin 8) (h w : Fin 28) :
    multiReduction (F := Ideal) .add [3] S8x28x28 y 0x00000000#32 hr hφ hacc (ix3 d h w)
      = ∑ k : Fin 256, y (ix4 d h w k) := by
  refine (Ideal.multiReduction_add_single y _ hr hφ hacc (ix3 d h w)).trans ?_
  refine Finset.sum_congr rfl fun k _ => congrArg y ?_
  funext a
  refine Fin.ext ?_
  match a with
  | ⟨0, _⟩ => rfl
  | ⟨1, _⟩ => rfl
  | ⟨2, _⟩ => rfl
  | ⟨3, _⟩ => rfl

/-- The column of feature-row means of a block: at (d, h, w, 0) the sum of the row at (d, h, w) over 256. -/
private def meanCol (y : FVec Ideal S8x28x28x256 .f32) : FVec Ideal S8x28x28x1 .f32 :=
  divf (shapeCast S8x28x28x1
      (multiReduction (F := Ideal) .add [3] S8x28x28 y 0x00000000#32 reduces_S8x28x28x256_S8x28x28 (.inl rfl) rfl)
      shapeCasts_S8x28x28_S8x28x28x1)
    (broadcast S8x28x28x1 (FloatOps.ofBits (F := Ideal) .f32 0x43800000#32))

/-- A block less its feature-row means. -/
private def centred (y : FVec Ideal S8x28x28x256 .f32) : FVec Ideal S8x28x28x256 .f32 :=
  subf y (broadcastTo S8x28x28x256 (meanCol y) broadcasts_S8x28x28x1_S8x28x28x256)

private theorem meanCol_apply (y : FVec Ideal S8x28x28x256 .f32) (d : Fin 8) (h w : Fin 28) :
    meanCol y (ix4 d h w (0 : Fin 1)) = Ideal.div (∑ k : Fin 256, y (ix4 d h w k)) Spec.c256 := by
  unfold meanCol
  rw [divf_apply, col_apply]
  exact congrArg (fun t => Ideal.div t Spec.c256) (sum_apply y _ _ _ d h w)

private theorem centred_apply (y : FVec Ideal S8x28x28x256 .f32) (d : Fin 8) (h w : Fin 28) (k : Fin 256) :
    centred y (ix4 d h w k) = y (ix4 d h w k) - Spec.mean fun k => y (ix4 d h w k) := by
  unfold centred
  rw [subf_apply, bcol_apply, meanCol_apply]
  rfl

/-- The normalised block at (d, h, w, c): entry c of the layer norm of the feature row at (d, h, w). -/
private theorem norm_apply (y : FVec Ideal S8x28x28x256 .f32) (W B : FVec Ideal S1x1x1x256 .f32)
    (d : Fin 8) (h w : Fin 28) (c : Fin 256) :
    addf (mulf (mulf (centred y)
          (broadcastTo S8x28x28x256
            (rsqrt (addf (meanCol (mulf (centred y) (centred y)))
              (broadcast S8x28x28x1 (FloatOps.ofBits (F := Ideal) .f32 0x3727C5AC#32))))
            broadcasts_S8x28x28x1_S8x28x28x256))
        (broadcastTo S8x28x28x256 W broadcasts_S1x1x1x256_S8x28x28x256))
      (broadcastTo S8x28x28x256 B broadcasts_S1x1x1x256_S8x28x28x256) (ix4 d h w c)
      = Spec.lnRow (fun k => y (ix4 d h w k)) (fun k => W (ix4 (0 : Fin 1) (0 : Fin 1) (0 : Fin 1) k))
          (fun k => B (ix4 (0 : Fin 1) (0 : Fin 1) (0 : Fin 1) k)) c := by
  rw [addf_apply, mulf_apply, mulf_apply, brow_apply, brow_apply, bcol_apply, centred_apply]
  show _ * Ideal.rsqrt (meanCol (mulf (centred y) (centred y)) (ix4 d h w (0 : Fin 1)) + Spec.epsLn) * _ + _ = _
  rw [meanCol_apply]
  simp only [mulf_apply, centred_apply]
  rfl

/-- Entry (c, d, s) of what the layer-norm body stores is entry c of the normalised feature row at depth d, height
    s / 28 and width s % 28 of its input block, under the weight and bias rows it loaded. -/
theorem pay_ln (x0 : Vec Ideal S1x8x28x28x256 .f32) (x1 x2 : Vec Ideal S1x256 .f32) (c : Fin 256) (d : Fin 8) (s : Fin 784) :
    k0_pay1 (F := Ideal) x0 x1 x2 (ix3 c d s)
      = Spec.lnRow (fun k => x0 (ix5 (0 : Fin 1) d (⟨s.val / 28, by have := s.isLt; omega⟩ : Fin 28) (⟨s.val % 28, by omega⟩ : Fin 28) k))
          (fun k => x1 (ix2 (0 : Fin 1) k)) (fun k => x2 (ix2 (0 : Fin 1) k)) c := by
  unfold k0_pay1
  refine (merge_apply _ _ c d s).trans ?_
  refine (tr_apply _ _ c d _ _).trans ?_
  refine (norm_apply (shapeCast S8x28x28x256 x0 shapeCasts_S1x8x28x28x256_S8x28x28x256) _ _ d _ _ c).trans ?_
  simp only [drop_apply, row_apply]

end Cert.KernelIdeal.PayLn

end
-- ==== Proof.Region0.lean ====
/-
  The first region's output array, whole.
  Grid point (t0, t1) normalises the 8 depths 8 t1 .. 8 t1 + 7 of batch t0 and writes rows 16 t0 + 8 t1 .. + 7 of
  the re-laid array; the 16 points' blocks tile the 128 rows, so the array ends as the specification's xre of the
  input, the weight row and the bias row as the region finds them.
-/
import proofs.«169970_j21612275434146_1_alg».proof.Proof.Gen.KernelIdeal.Frame
import proofs.«169970_j21612275434146_1_alg».proof.Proof.PayLn
import proofs.«169970_j21612275434146_1_alg».proof.Proof.Spec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the buffer contents when the region is entered: every statement here holds at any such contents
variable (V : (c : Dev nD) → (b : Ref sig .tc) → Buf (Elt Ideal) ((c : Thread nD τ).loc b))

/-- The offsets of the body's whole-buffer accesses are all zero. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- The index maps over the grid: the output's row block is 2 t0 + t1 where (t0, t1) is the input's (batch, depth)
    block; every other block index is zero; t0 ≤ 7 and t1 ≤ 1. -/
theorem idx_facts : ∀ t : Fin cfg0.N,
    win0_3.index t (0 : Fin 3) = 0
    ∧ win0_3.index t (1 : Fin 3) = 2 * win0_0.index t (0 : Fin 5) + win0_0.index t (1 : Fin 5)
    ∧ win0_3.index t (2 : Fin 3) = 0
    ∧ win0_0.index t (0 : Fin 5) ≤ 7
    ∧ win0_0.index t (1 : Fin 5) ≤ 1
    ∧ win0_0.index t (2 : Fin 5) = 0
    ∧ win0_0.index t (3 : Fin 5) = 0
    ∧ win0_0.index t (4 : Fin 5) = 0
    ∧ win0_1.index t (0 : Fin 2) = 0
    ∧ win0_1.index t (1 : Fin 2) = 0
    ∧ win0_2.index t (0 : Fin 2) = 0
    ∧ win0_2.index t (1 : Fin 2) = 0 :=
  (by decide +kernel : ∀ t : Fin grid0.N, _)

/-- Every one of the 16 row blocks of the output is some point's. -/
theorem idx_onto : ∀ q : Fin 16, ∃ t : Fin cfg0.N, win0_3.index t = ![0, q.val, 0] :=
  (by decide +kernel : ∀ q : Fin 16, ∃ t : Fin grid0.N, win0_3.index t = ![0, q.val, 0])

/-- The input block of point t read at (0, d, h, w, k): the input array at batch t0, depth 8 t1 + d, there. -/
theorem read_in0 (c : Dev nD) (t : Fin cfg0.N) (d : Fin 8) (h w : Fin 28) (k : Fin 256) (I : Spec.SX.Idx)
    (e0 : (I 0).val = win0_0.index t (0 : Fin 5)) (e1 : (I 1).val = win0_0.index t (1 : Fin 5) * 8 + d.val)
    (e2 : (I 2).val = h.val) (e3 : (I 3).val = w.val) (e4 : (I 4).val = k.val) :
    iblk0 V c 0 t (ix5 (0 : Fin 1) d h w k) = V c main_arg0 I := by
  obtain ⟨-, -, -, -, -, f2, f3, f4, -⟩ := idx_facts t
  unfold iblk0
  rw [View.read_apply]
  show V c main_arg0 (((cfg0.win 0).blk t).view.emb (ix5 (0 : Fin 1) d h w k)) = V c main_arg0 I
  refine congrArg (V c main_arg0) ?_
  funext a; apply Fin.ext
  match a with
  | ⟨0, _⟩ => show win0_0.index t (0 : Fin 5) * 1 + 1 * 0 = (I 0).val; omega
  | ⟨1, _⟩ => show win0_0.index t (1 : Fin 5) * 8 + 1 * d.val = (I 1).val; omega
  | ⟨2, _⟩ => show win0_0.index t (2 : Fin 5) * 28 + 1 * h.val = (I 2).val; omega
  | ⟨3, _⟩ => show win0_0.index t (3 : Fin 5) * 28 + 1 * w.val = (I 3).val; omega
  | ⟨4, _⟩ => show win0_0.index t (4 : Fin 5) * 256 + 1 * k.val = (I 4).val; omega

/-- The weight block of any point is the whole weight row. -/
theorem read_in1 (c : Dev nD) (t : Fin cfg0.N) (k : Fin 256) :
    iblk0 V c 1 t (ix2 (0 : Fin 1) k) = V c main_v0 (ix2 (0 : Fin 1) k) := by
  obtain ⟨-, -, -, -, -, -, -, -, g0, g1, -, -⟩ := idx_facts t
  unfold iblk0
  rw [View.read_apply]
  show V c main_v0 (((cfg0.win 1).blk t).view.emb (ix2 (0 : Fin 1) k)) = V c main_v0 (ix2 (0 : Fin 1) k)
  refine congrArg (V c main_v0) ?_
  funext a; apply Fin.ext
  match a with
  | ⟨0, _⟩ => show win0_1.index t (0 : Fin 2) * 1 + 1 * 0 = 0; omega
  | ⟨1, _⟩ => show win0_1.index t (1 : Fin 2) * 256 + 1 * k.val = k.val; omega

/-- The bias block of any point is the whole bias row. -/
theorem read_in2 (c : Dev nD) (t : Fin cfg0.N) (k : Fin 256) :
    iblk0 V c 2 t (ix2 (0 : Fin 1) k) = V c main_v1 (ix2 (0 : Fin 1) k) := by
  obtain ⟨-, -, -, -, -, -, -, -, -, -, h0, h1⟩ := idx_facts t
  unfold iblk0
  rw [View.read_apply]
  show V c main_v1 (((cfg0.win 2).blk t).view.emb (ix2 (0 : Fin 1) k)) = V c main_v1 (ix2 (0 : Fin 1) k)
  refine congrArg (V c main_v1) ?_
  funext a; apply Fin.ext
  match a with
  | ⟨0, _⟩ => show win0_2.index t (0 : Fin 2) * 1 + 1 * 0 = 0; omega
  | ⟨1, _⟩ => show win0_2.index t (1 : Fin 2) * 256 + 1 * k.val = k.val; omega

/-- The output block of point t read at (p, q, r): any array at feature p, row 8 (2 t0 + t1) + q, position r. -/
theorem read_out (G : Spec.SA.Idx → EReal) (t : Fin cfg0.N) (p : Fin 256) (q : Fin 8) (r : Fin 784) (J : Spec.SA.Idx)
    (e0 : (J 0).val = p.val) (e1 : (J 1).val = win0_3.index t (1 : Fin 3) * 8 + q.val) (e2 : (J 2).val = r.val) :
    ((cfg0.win 3).blk t).view.read (Elt Ideal) G (ix3 p q r) = G J := by
  obtain ⟨f0, -, f2, -⟩ := idx_facts t
  rw [View.read_apply]
  show G (((cfg0.win 3).blk t).view.emb (ix3 p q r)) = G J
  refine congrArg G ?_
  funext a; apply Fin.ext
  match a with
  | ⟨0, _⟩ => show win0_3.index t (0 : Fin 3) * 256 + 1 * p.val = (J 0).val; omega
  | ⟨1, _⟩ => show win0_3.index t (1 : Fin 3) * 8 + 1 * q.val = (J 1).val; omega
  | ⟨2, _⟩ => show win0_3.index t (2 : Fin 3) * 784 + 1 * r.val = (J 2).val; omega

/-- xre at (p, m, r), written out. -/
theorem xre_apply (X : Spec.SX.Idx → EReal) (w b : Fin 256 → EReal) (p : Fin 256) (m : Fin 128) (r : Fin 784) :
    Spec.xre X w b (ix3 p m r)
      = Spec.lnRow (fun k => X (ix5 (⟨m.val / 16, by have := m.isLt; omega⟩ : Fin 8) (⟨m.val % 16, by omega⟩ : Fin 16)
          (⟨r.val / 28, by have := r.isLt; omega⟩ : Fin 28) (⟨r.val % 28, by omega⟩ : Fin 28) k)) w b p := rfl

/-- The normalised row depends on its three rows entry by entry. -/
theorem lnRow_congr {r r' w w' b b' : Fin 256 → EReal} (hr : ∀ k, r k = r' k) (hw : ∀ k, w k = w' k)
    (hb : ∀ k, b k = b' k) (c : Fin 256) : Spec.lnRow r w b c = Spec.lnRow r' w' b' c := by
  obtain rfl : r = r' := funext hr
  obtain rfl : w = w' := funext hw
  obtain rfl : b = b' := funext hb
  rfl

/-- What point t writes back is block t of xre of the arrays as the region finds them. -/
theorem flushed_eq (c : Dev nD) (t : Fin cfg0.N) :
    (dat0 (F := Ideal) V c).flushed 3 t = ((cfg0.win 3).blk t).view.read (Elt Ideal)
      (Spec.xre (V c main_arg0) (fun k => V c main_v0 (ix2 (0 : Fin 1) k)) (fun k => V c main_v1 (ix2 (0 : Fin 1) k))) := by
  show (cfg0.win 3).cut (grid0.coords t) ((dat0 V c).after 3 t) = _
  rw [after0_3]
  unfold out0_3
  rw [View.canon_unit_zero hz3]
  simp only [View.ld_unit_zero (S := S1x8x28x28x256) hz5, View.ld_unit_zero (S := S1x256) hz2]
  funext j
  obtain ⟨p, q, r, rfl⟩ : ∃ (p : Fin 256) (q : Fin 8) (r : Fin 784), j = ix3 p q r := ⟨j 0, j 1, j 2, eq_ix3 j⟩
  refine (PayLn.pay_ln (iblk0 V c 0 t) (iblk0 V c 1 t) (iblk0 V c 2 t) p q r).trans ?_
  obtain ⟨e0, e1, e2, b0, b1, -⟩ := idx_facts t
  have hq : q.val < 8 := q.isLt
  have hr : r.val < 784 := r.isLt
  -- the row of the re-laid array this entry lands in: 8 (2 t0 + t1) + q = 16 t0 + (8 t1 + q)
  have hm : (2 * win0_0.index t (0 : Fin 5) + win0_0.index t (1 : Fin 5)) * 8 + q.val < 128 := by omega
  refine Eq.trans ?_ (read_out _ t p q r (ix3 p (⟨(2 * win0_0.index t (0 : Fin 5) + win0_0.index t (1 : Fin 5)) * 8 + q.val, hm⟩ : Fin 128) r)
    rfl (by show (2 * win0_0.index t (0 : Fin 5) + win0_0.index t (1 : Fin 5)) * 8 + q.val = win0_3.index t (1 : Fin 3) * 8 + q.val; omega) rfl).symm
  refine Eq.trans ?_ (xre_apply _ _ _ p _ r).symm
  refine lnRow_congr (fun k => ?_) (fun k => read_in1 V c t k) (fun k => read_in2 V c t k) p
  refine read_in0 V c t q _ _ k _ ?_ ?_ rfl rfl rfl
  · show ((2 * win0_0.index t (0 : Fin 5) + win0_0.index t (1 : Fin 5)) * 8 + q.val) / 16 = win0_0.index t (0 : Fin 5); omega
  · show ((2 * win0_0.index t (0 : Fin 5) + win0_0.index t (1 : Fin 5)) * 8 + q.val) % 16 = win0_0.index t (1 : Fin 5) * 8 + q.val; omega

/-- An index of the output array is in point t's block iff each coordinate is in the block's range on its axis. -/
theorem mem_blk (t : Fin cfg0.N) (i : Spec.SA.Idx) :
    i ∈ ((cfg0.win 3).blk t).view.set ↔ ∀ a : Fin 3, win0_3.index t a * S256x8x784.size a ≤ (i a).val ∧ (i a).val < win0_3.index t a * S256x8x784.size a + S256x8x784.size a := by
  show i ∈ ((View.whole main_v2).slice (win0_3.rect t)).set ↔ _
  rw [View.set_slice_whole, Rect.mem_set_unit]
  exact Iff.rfl

/-- The 16 points' blocks tile the output array: the index at row m lies in the block of the point whose row
    block is m / 8. -/
theorem cover (i : Spec.SA.Idx) :
    ∃ t : Fin cfg0.N, (cfg0.win 3).flush t = true ∧ i ∈ ((cfg0.win 3).blk t).view.set := by
  have hi0 : (i 0).val < 256 := (i 0).isLt
  have hi1 : (i 1).val < 128 := (i 1).isLt
  have hi2 : (i 2).val < 784 := (i 2).isLt
  obtain ⟨t, ht⟩ := idx_onto ⟨(i 1).val / 8, by omega⟩
  have q0 : win0_3.index t (0 : Fin 3) = 0 := congrFun ht 0
  have q1 : win0_3.index t (1 : Fin 3) = (i 1).val / 8 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 256 ≤ (i 0).val ∧ (i 0).val < win0_3.index t (0 : Fin 3) * 256 + 256; omega
  | ⟨1, _⟩ => show win0_3.index t (1 : Fin 3) * 8 ≤ (i 1).val ∧ (i 1).val < win0_3.index t (1 : Fin 3) * 8 + 8; omega
  | ⟨2, _⟩ => show win0_3.index t (2 : Fin 3) * 784 ≤ (i 2).val ∧ (i 2).val < win0_3.index t (2 : Fin 3) * 784 + 784; omega

/-- After the first region its output array is xre of the input and of the (reshaped) weight and bias rows. -/
theorem arr_xre (c : Dev nD) :
    (dat0 (F := Ideal) V c).arrAt 3 cfg0.N
      = Spec.xre (V c main_arg0) (fun k => V c main_v0 (ix2 (0 : Fin 1) k)) (fun k => V c main_v1 (ix2 (0 : Fin 1) k)) := by
  exact (dat0 (F := Ideal) V c).arrAt_eq_of_cover 3 _ (fun t _ => flushed_eq V c t) cover

end Cert.KernelIdeal.Region0

end
-- ==== Proof.PayDist.lean ====
/-
  The two distance kernels' stored values, read at an index.
  Both bodies form, for each feature of their block, the squared norms of the rows, the cross products by one
  matrix product, and from them the floored distance; the first then splits the row axis into (batch, depth) and
  moves the feature axis behind them.
-/
import proofs.«169970_j21612275434146_1_alg».proof.Proof.Gen.KernelIdeal.Skeleton
import proofs.«169970_j21612275434146_1_alg».proof.Proof.Spec
import Idealize.ShloMosaic.Lib.ValueIdx
import Idealize.ShloMosaic.Lib.Pipeline.Value
import Idealize.ShloMosaic.PureOps.Ideal.Laws

noncomputable section

namespace Cert.KernelIdeal.PayDist

open Idealize.ShloMosaic Idealize.ShloMosaic.ValueIdx Cert.KernelIdeal Cert.KernelIdeal.Gen

/-! ## The matrix product's operand indices

At output index j and contraction index q the left operand is read at (j 0, j 1, q) and the right at (j 0, j 2, q):
axis 0 is the batch axis of both, axis 1 the free axis of each, axis 2 the contracted one. -/

private theorem lhs_0 (j : S8x128x128.Idx) (q : dot_S8x128x784_S8x128x784_S8x128x128_2_2_1_1_0_0.contr.Idx) :
    (dot_S8x128x784_S8x128x784_S8x128x128_2_2_1_1_0_0.lhsIdx j q 0).val = (j 0).val := by
  unfold DotDims.lhsIdx
  rw [dif_pos (show (0 : Fin S8x128x784.rank) ∈ dot_S8x128x784_S8x128x784_S8x128x128_2_2_1_1_0_0.lhsBatch by decide)]
  rfl
private theorem lhs_1 (j : S8x128x128.Idx) (q : dot_S8x128x784_S8x128x784_S8x128x128_2_2_1_1_0_0.contr.Idx) :
    (dot_S8x128x784_S8x128x784_S8x128x128_2_2_1_1_0_0.lhsIdx j q 1).val = (j 1).val := by
  unfold DotDims.lhsIdx
  rw [dif_neg (show ¬(1 : Fin S8x128x784.rank) ∈ dot_S8x128x784_S8x128x784_S8x128x128_2_2_1_1_0_0.lhsBatch by decide), dif_pos (show (1 : Fin S8x128x784.rank) ∈ dot_S8x128x784_S8x128x784_S8x128x128_2_2_1_1_0_0.lhsNonContracting by decide)]
  rfl
private theorem lhs_2 (j : S8x128x128.Idx) (q : dot_S8x128x784_S8x128x784_S8x128x128_2_2_1_1_0_0.contr.Idx) :
    (dot_S8x128x784_S8x128x784_S8x128x128_2_2_1_1_0_0.lhsIdx j q 2).val = (q ⟨0, by decide⟩).val :=
  dot_S8x128x784_S8x128x784_S8x128x128_2_2_1_1_0_0.lhsIdx_val_of_single rfl j q
private theorem rhs_0 (j : S8x128x128.Idx) (q : dot_S8x128x784_S8x128x784_S8x128x128_2_2_1_1_0_0.contr.Idx) :
    (dot_S8x128x784_S8x128x784_S8x128x128_2_2_1_1_0_0.rhsIdx j q 0).val = (j 0).val := by
  unfold DotDims.rhsIdx
  rw [dif_pos (show (0 : Fin S8x128x784.rank) ∈ dot_S8x128x784_S8x128x784_S8x128x128_2_2_1_1_0_0.rhsBatch by decide)]
  rfl
private theorem rhs_1 (j : S8x128x128.Idx) (q : dot_S8x128x784_S8x128x784_S8x128x128_2_2_1_1_0_0.contr.Idx) :
    (dot_S8x128x784_S8x128x784_S8x128x128_2_2_1_1_0_0.rhsIdx j q 1).val = (j 2).val := by
  unfold DotDims.rhsIdx
  rw [dif_neg (show ¬(1 : Fin S8x128x784.rank) ∈ dot_S8x128x784_S8x128x784_S8x128x128_2_2_1_1_0_0.rhsBatch by decide), dif_pos (show (1 : Fin S8x128x784.rank) ∈ dot_S8x128x784_S8x128x784_S8x128x128_2_2_1_1_0_0.rhsNonContracting by decide)]
  rfl
private theorem rhs_2 (j : S8x128x128.Idx) (q : dot_S8x128x784_S8x128x784_S8x128x128_2_2_1_1_0_0.contr.Idx) :
    (dot_S8x128x784_S8x128x784_S8x128x128_2_2_1_1_0_0.rhsIdx j q 2).val = (q ⟨0, by decide⟩).val :=
  dot_S8x128x784_S8x128x784_S8x128x128_2_2_1_1_0_0.rhsIdx_val_of_single rfl j q

/-- The batched product into the zero accumulator, at (r, i, n): the inner product of row i of the left operand's
    feature r with row n of the right operand's. -/
private theorem dot_read {φ₁ φ₂ : FTy} (x : FVec Ideal S8x128x784 φ₁) (y : FVec Ideal S8x128x784 φ₂) (r : Fin 8) (i n : Fin 128) :
    matmul dot_S8x128x784_S8x128x784_S8x128x128_2_2_1_1_0_0 none x y (constant S8x128x128 .f32 0x00000000#32) (ix3 r i n)
      = ∑ k : Fin 784, x (ix3 r i k) * y (ix3 r n k) := by
  refine (Ideal.matmul_constant_zero_apply dot_S8x128x784_S8x128x784_S8x128x128_2_2_1_1_0_0 none x y (ix3 r i n)).trans ?_
  rw [← Equiv.sum_comp (ValueIdx.contrEquiv1 dot_S8x128x784_S8x128x784_S8x128x128_2_2_1_1_0_0 784 rfl rfl).symm]
  refine Finset.sum_congr rfl fun k _ => ?_
  have hk := ValueIdx.contrEquiv1_symm_val dot_S8x128x784_S8x128x784_S8x128x128_2_2_1_1_0_0 784 rfl rfl k
  have el : dot_S8x128x784_S8x128x784_S8x128x128_2_2_1_1_0_0.lhsIdx (ix3 r i n) ((ValueIdx.contrEquiv1 dot_S8x128x784_S8x128x784_S8x128x128_2_2_1_1_0_0 784 rfl rfl).symm k) = ix3 r i k :=
    funext fun a => Fin.ext (by
      match a with
      | ⟨0, _⟩ => exact lhs_0 _ _
      | ⟨1, _⟩ => exact lhs_1 _ _
      | ⟨2, _⟩ => exact (lhs_2 _ _).trans hk)
  have er : dot_S8x128x784_S8x128x784_S8x128x128_2_2_1_1_0_0.rhsIdx (ix3 r i n) ((ValueIdx.contrEquiv1 dot_S8x128x784_S8x128x784_S8x128x128_2_2_1_1_0_0 784 rfl rfl).symm k) = ix3 r n k :=
    funext fun a => Fin.ext (by
      match a with
      | ⟨0, _⟩ => exact rhs_0 _ _
      | ⟨1, _⟩ => exact rhs_1 _ _
      | ⟨2, _⟩ => exact (rhs_2 _ _).trans hk)
  rw [el, er]

/-! ## The squared norms -/

/-- The sum over the last axis of the squares, at (r, i): the squared norm of row i of feature r. -/
private theorem sq_read (x : FVec Ideal S8x128x784 .f32) (h : S8x128x784.Reduces [2] S8x128) (r : Fin 8) (i : Fin 128) :
    multiReduction (F := Ideal) .add [2] S8x128 (mulf x x) 0x00000000#32 h (.inl rfl) rfl (ix2 r i)
      = ∑ k : Fin 784, x (ix3 r i k) * x (ix3 r i k) := by
  refine (Ideal.multiReduction_add_single (mulf x x) _ h _ _ (ix2 r i)).trans ?_
  refine Finset.sum_congr rfl fun k _ => ?_
  have e : h.lift (ix2 r i) k = ix3 r i k :=
    funext fun a => Fin.ext (by match a with | ⟨0, _⟩ => rfl | ⟨1, _⟩ => rfl | ⟨2, _⟩ => rfl)
  rw [e]
  rfl

/-- A vector of row values, given a trailing unit axis and repeated along it, reads at (r, i, n) its value at (r, i). -/
private theorem row_read (v : FVec Ideal S8x128 .f32) (hc : S8x128.ShapeCasts S8x128x1) (hb : S8x128x1.Broadcasts S8x128x128)
    (r : Fin 8) (i n : Fin 128) :
    broadcastTo S8x128x128 (shapeCast S8x128x1 v hc) hb (ix3 r i n) = v (ix2 r i) := by
  refine (broadcastTo_apply _ hb (ix3 r i n) (ix3 r i (0 : Fin 1)) fun a => ?_).trans ?_
  · match a with
    | ⟨0, _⟩ => show r.val = if (8 : Nat) = 1 then 0 else r.val; rw [if_neg (by decide)]
    | ⟨1, _⟩ => show i.val = if (128 : Nat) = 1 then 0 else i.val; rw [if_neg (by decide)]
    | ⟨2, _⟩ => show (0 : Nat) = if (1 : Nat) = 1 then 0 else n.val; rw [if_pos rfl]
  · refine shapeCast_apply v hc (ix3 r i (0 : Fin 1)) (ix2 r i) ?_
    rw [Shape.rowMajor_val_two, Shape.rowMajor_val_three]
    show r.val * 128 + i.val = (r.val * 128 + i.val) * 1 + 0
    omega

/-- The same vector given a middle unit axis and repeated along it reads at (r, i, n) its value at (r, n). -/
private theorem col_read (v : FVec Ideal S8x128 .f32) (hc : S8x128.ShapeCasts S8x1x128) (hb : S8x1x128.Broadcasts S8x128x128)
    (r : Fin 8) (i n : Fin 128) :
    broadcastTo S8x128x128 (shapeCast S8x1x128 v hc) hb (ix3 r i n) = v (ix2 r n) := by
  refine (broadcastTo_apply _ hb (ix3 r i n) (ix3 r (0 : Fin 1) n) fun a => ?_).trans ?_
  · match a with
    | ⟨0, _⟩ => show r.val = if (8 : Nat) = 1 then 0 else r.val; rw [if_neg (by decide)]
    | ⟨1, _⟩ => show (0 : Nat) = if (1 : Nat) = 1 then 0 else i.val; rw [if_pos rfl]
    | ⟨2, _⟩ => show n.val = if (128 : Nat) = 1 then 0 else n.val; rw [if_neg (by decide)]
  · refine shapeCast_apply v hc (ix3 r (0 : Fin 1) n) (ix2 r n) ?_
    rw [Shape.rowMajor_val_two, Shape.rowMajor_val_three]
    show r.val * 128 + n.val = (r.val * 1 + 0) * 128 + n.val
    omega

/-! ## The distance matrix both bodies form -/

/-- The floored distances of the rows of x to the rows of y, feature by feature: the squared norms of the rows of
    each, repeated along the other's axis and added, less twice the matrix product, floored, under the root. -/
private def core (x y : FVec Ideal S8x128x784 .f32) : FVec Ideal S8x128x128 .f32 :=
  sqrt (maximumf
    (subf
      (addf
        (broadcastTo S8x128x128 (shapeCast S8x128x1
          (multiReduction .add [2] S8x128 (mulf x x) 0x00000000#32 reduces_S8x128x784_S8x128 (.inl rfl) rfl)
          shapeCasts_S8x128_S8x128x1) broadcasts_S8x128x1_S8x128x128)
        (broadcastTo S8x128x128 (shapeCast S8x1x128
          (multiReduction .add [2] S8x128 (mulf y y) 0x00000000#32 reduces_S8x128x784_S8x128 (.inl rfl) rfl)
          shapeCasts_S8x128_S8x1x128) broadcasts_S8x1x128_S8x128x128))
      (mulf (broadcast S8x128x128 (Scalar.ofBits .f32 0x40000000#32))
        (matmul dot_S8x128x784_S8x128x784_S8x128x128_2_2_1_1_0_0 none (truncf .bf16 x bitsLt_bf16_f32) (truncf .bf16 y bitsLt_bf16_f32)
          (constant S8x128x128 .f32 0x00000000#32))))
    (broadcast S8x128x128 (Scalar.ofBits .f32 0x2B8CBCCC#32)))

/-- At (r, i, n) it is the distance of row i of x to row n of y in feature r. -/
private theorem core_read (x y : FVec Ideal S8x128x784 .f32) (r : Fin 8) (i n : Fin 128) :
    core x y (ix3 r i n) = Spec.dist (fun k => x (ix3 r i k)) (fun k => y (ix3 r n k)) := by
  have hA := (row_read _ shapeCasts_S8x128_S8x128x1 broadcasts_S8x128x1_S8x128x128 r i n).trans
    (sq_read x reduces_S8x128x784_S8x128 r i)
  have hB := (col_read _ shapeCasts_S8x128_S8x1x128 broadcasts_S8x1x128_S8x128x128 r i n).trans
    (sq_read y reduces_S8x128x784_S8x128 r n)
  have hC := dot_read (truncf .bf16 x bitsLt_bf16_f32) (truncf .bf16 y bitsLt_bf16_f32) r i n
  unfold Spec.dist
  exact congrArg Ideal.sqrt (congrArg₂ max
    (congrArg₂ (· - ·) (congrArg₂ (· + ·) hA hB) (congrArg (Spec.two * ·) hC)) rfl)

/-! ## The two stored values -/

/-- Entry (p, q, r, n) of what the first distance body stores: the distance, in feature r of the block, of row
    16 p + q of the first operand to row n of the second. -/
theorem pay_xdist (a b : Vec Ideal S8x128x784 .f32) (p : Fin 8) (q : Fin 16) (r : Fin 8) (n : Fin 128) :
    k1_pay1 (F := Ideal) a b (ix4 p q r n)
      = Spec.dist (fun k => a (ix3 r (⟨p.val * 16 + q.val, by have := p.isLt; have := q.isLt; omega⟩ : Fin 128) k)) (fun k => b (ix3 r n k)) := by
  show transpose S8x16x8x128 [1, 2, 0, 3]
      (shapeCast S8x8x16x128 (core (shapeCast S8x128x784 a shapeCasts_S8x128x784_S8x128x784) b)
        shapeCasts_S8x128x128_S8x8x16x128)
      transposes_S8x8x16x128_p1_2_0_3_S8x16x8x128 (ix4 p q r n) = _
  -- the transposition puts the feature axis third: the entry comes from (r, p, q, n) of the split matrix
  refine (transpose_apply _ _ transposes_S8x8x16x128_p1_2_0_3_S8x16x8x128 (ix4 p q r n) (ix4 r p q n) fun c => ?_).trans ?_
  · match c with
    | ⟨0, _⟩ => rfl
    | ⟨1, _⟩ => rfl
    | ⟨2, _⟩ => rfl
    | ⟨3, _⟩ => rfl
  -- the split of the 128 rows into 8 by 16 is row-major: (p, q) is row 16 p + q
  refine (shapeCast_apply _ shapeCasts_S8x128x128_S8x8x16x128 (ix4 r p q n)
    (ix3 r (⟨p.val * 16 + q.val, by have := p.isLt; have := q.isLt; omega⟩ : Fin 128) n) ?_).trans ?_
  · rw [Shape.rowMajor_val_three, Shape.rowMajor_val_four]
    show (r.val * 128 + (p.val * 16 + q.val)) * 128 + n.val = ((r.val * 8 + p.val) * 16 + q.val) * 128 + n.val
    omega
  rw [shapeCast_self]
  exact core_read a b r _ n

/-- Entry (r, i, n) of what the second distance body stores: the distance, in feature r of the block, of row i to
    row n of its one operand. -/
theorem pay_cdist (a : Vec Ideal S8x128x784 .f32) (r : Fin 8) (i n : Fin 128) :
    k2_pay1 (F := Ideal) a (ix3 r i n) = Spec.dist (fun k => a (ix3 r i k)) (fun k => a (ix3 r n k)) := by
  exact core_read a a r i n

end Cert.KernelIdeal.PayDist

end
-- ==== Proof.PaySoft.lean ====
/-
  The softmax the first distance kernel stores beside the distances, read at an index: over the last axis of the
  stored distances, scaled by -32, less the row's maximum, exponentiated and divided by the row's sum.
-/
import proofs.«169970_j21612275434146_1_alg».proof.Proof.Gen.KernelIdeal.Skeleton
import proofs.«169970_j21612275434146_1_alg».proof.Proof.Spec
import Idealize.ShloMosaic.Lib.ValueIdx
import Idealize.ShloMosaic.Lib.Pipeline.Value
import Idealize.ShloMosaic.PureOps.Ideal.Laws

noncomputable section

namespace Cert.KernelIdeal.PaySoft

open Idealize.ShloMosaic Idealize.ShloMosaic.ValueIdx Cert.KernelIdeal Cert.KernelIdeal.Gen

/-- Over the row (p, q, r), the index with k on the reduced last axis is (p, q, r, k). -/
theorem lift_ix3 (h : S8x16x8x128.Reduces [3] S8x16x8) (p : Fin 8) (q : Fin 16) (r : Fin 8) (k : Fin 128) :
    h.lift (ix3 p q r) k = ix4 p q r k := by
  funext c
  refine Fin.ext ?_
  match c with
  | ⟨0, _⟩ => rfl
  | ⟨1, _⟩ => rfl
  | ⟨2, _⟩ => rfl
  | ⟨3, _⟩ => rfl

/-- A value over rows, given a unit last axis and spread along 128 entries, reads at (p, q, r, n) its entry (p, q, r). -/
theorem spread_apply (v : S8x16x8.Idx → EReal) (hc : S8x16x8.ShapeCasts S8x16x8x1) (hb : S8x16x8x1.Broadcasts S8x16x8x128)
    (p : Fin 8) (q : Fin 16) (r : Fin 8) (n : Fin 128) :
    broadcastTo S8x16x8x128 (shapeCast S8x16x8x1 v hc) hb (ix4 p q r n) = v (ix3 p q r) := by
  refine (broadcastTo_apply _ hb (ix4 p q r n) (ix4 p q r (0 : Fin 1)) fun a => ?_).trans ?_
  · match a with
    | ⟨0, _⟩ => rfl
    | ⟨1, _⟩ => rfl
    | ⟨2, _⟩ => rfl
    | ⟨3, _⟩ => rfl
  · refine shapeCast_apply v hc _ (ix3 p q r) ?_
    rw [Shape.rowMajor_val_three, Shape.rowMajor_val_four]
    show ((p.val * 16 + q.val) * 8 + r.val) = (((p.val * 16 + q.val) * 8 + r.val) * 1 + 0)
    omega

/-- The row maximum as the kernel takes it, read at row (p, q, r) of W: the fold of max from -infinity over the
    row's 128 entries, met once more with -infinity. -/
theorem rowmax_apply (W : FVec Ideal S8x16x8x128 .f32) (h : S8x16x8x128.Reduces [3] S8x16x8)
    (hφ : FKind.Formats FTy.f32) (hacc : (0xFF800000#32 : BitVec 32) = FKind.maximumf.neutral .f32 hφ)
    (p : Fin 8) (q : Fin 16) (r : Fin 8) :
    maximumf (broadcast S8x16x8 (FloatOps.ofBits (F := Ideal) .f32 0xFF800000#32))
        (multiReduction .maximumf [3] S8x16x8 W 0xFF800000#32 h hφ hacc) (ix3 p q r)
      = max Spec.negInf ((Finset.univ : Finset (Fin 128)).fold max Spec.negInf fun k => W (ix4 p q r k)) := by
  refine (maximumf_apply _ _ _).trans ?_
  refine congrArg (max Spec.negInf) ?_
  refine (Ideal.multiReduction_maximumf_single W _ h hφ hacc (ix3 p q r)).trans ?_
  have hf : (W ∘ h.lift (ix3 p q r)) = fun k : Fin 128 => W (ix4 p q r k) :=
    funext fun k => congrArg W (lift_ix3 h p q r k)
  exact congrArg ((Finset.univ : Finset (Fin 128)).fold max Spec.negInf) hf

/-- The row sum read at row (p, q, r) of W: the sum of the row's 128 entries. -/
theorem rowsum_apply (W : FVec Ideal S8x16x8x128 .f32) (h : S8x16x8x128.Reduces [3] S8x16x8)
    (hφ : FKind.Formats FTy.f32) (hacc : (0x00000000#32 : BitVec 32) = FKind.add.neutral .f32 hφ)
    (p : Fin 8) (q : Fin 16) (r : Fin 8) :
    multiReduction .add [3] S8x16x8 W 0x00000000#32 h hφ hacc (ix3 p q r) = ∑ k : Fin 128, W (ix4 p q r k) := by
  refine (Ideal.multiReduction_add_single W _ h hφ hacc (ix3 p q r)).trans ?_
  exact Finset.sum_congr rfl fun k _ => congrArg W (lift_ix3 h p q r k)

/-- The exponent the kernel forms at (p, q, r, n): -32 times the entry, less the row's maximum. -/
theorem shift_apply (D : FVec Ideal S8x16x8x128 .f32) (h : S8x16x8x128.Reduces [3] S8x16x8)
    (hφ : FKind.Formats FTy.f32) (hacc : (0xFF800000#32 : BitVec 32) = FKind.maximumf.neutral .f32 hφ)
    (hc : S8x16x8.ShapeCasts S8x16x8x1) (hb : S8x16x8x1.Broadcasts S8x16x8x128)
    (p : Fin 8) (q : Fin 16) (r : Fin 8) (n : Fin 128) :
    subf (mulf (broadcast S8x16x8x128 (FloatOps.ofBits (F := Ideal) .f32 0xC2000000#32)) D)
        (broadcastTo S8x16x8x128
          (shapeCast S8x16x8x1
            (maximumf (broadcast S8x16x8 (FloatOps.ofBits (F := Ideal) .f32 0xFF800000#32))
              (multiReduction .maximumf [3] S8x16x8
                (mulf (broadcast S8x16x8x128 (FloatOps.ofBits (F := Ideal) .f32 0xC2000000#32)) D) 0xFF800000#32 h hφ hacc))
            hc) hb) (ix4 p q r n)
      = Spec.shifted (fun n' => D (ix4 p q r n')) n := by
  refine (subf_apply _ _ _).trans ?_
  unfold Spec.shifted
  refine congrArg (fun x => Spec.negAlpha * D (ix4 p q r n) - x) ?_
  refine (spread_apply _ hc hb p q r n).trans ?_
  exact rowmax_apply _ h hφ hacc p q r

/-- Entry (p, q, r, n) of the stored weights is the softmax weight of entry n in the row (p, q, r) of the stored
    distances. -/
theorem pay_assign (a b : Vec Ideal S8x128x784 .f32) (p : Fin 8) (q : Fin 16) (r : Fin 8) (n : Fin 128) :
    k1_pay2 (F := Ideal) a b (ix4 p q r n)
      = Spec.softRow (fun n' => k1_pay1 (F := Ideal) a b (ix4 p q r n')) n := by
  unfold k1_pay2
  generalize k1_pay1 (F := Ideal) a b = D
  unfold Spec.softRow
  refine (divf_apply _ _ _).trans ?_
  refine congrArg₂ Ideal.div ?_ ?_
  · exact congrArg Ideal.exp (shift_apply D _ _ _ _ _ p q r n)
  · refine (spread_apply _ _ _ p q r n).trans ?_
    refine (rowsum_apply _ _ _ _ p q r).trans ?_
    exact Finset.sum_congr rfl fun j _ => congrArg Ideal.exp (shift_apply D _ _ _ _ _ p q r j)

end Cert.KernelIdeal.PaySoft

end
-- ==== Proof.Region1.lean ====
/-
  The second region's two output arrays, whole.
  Grid point t takes features 8 t .. 8 t + 7 of both operands and writes, for each of its features, the distances of
  the 128 rows to the 128 centres and their softmax weights into the feature axis of the outputs; the 32 points'
  blocks tile the 256 features.
-/
import proofs.«169970_j21612275434146_1_alg».proof.Proof.Gen.KernelIdeal.Frame
import proofs.«169970_j21612275434146_1_alg».proof.Proof.PayDist
import proofs.«169970_j21612275434146_1_alg».proof.Proof.PaySoft
import proofs.«169970_j21612275434146_1_alg».proof.Proof.Spec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the buffer contents when the region is entered: every statement here holds at any such contents
variable (V : (c : Dev nD) → (b : Ref sig .tc) → Buf (Elt Ideal) ((c : Thread nD τ).loc b))

/-! ## The index maps, decided once over the 32 grid points -/

/-- The two accesses' rectangles start at the origin of their blocks. -/
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Both operands' blocks move along the feature axis with the outputs' block on their third axis and stay at the
    origin on the other axes; the outputs' blocks stay at the origin off the feature axis, and there are 32 of them. -/
theorem idx_facts : ∀ t : Fin cfg1.N,
    win1_0.index t (0 : Fin 3) = win1_2.index t (2 : Fin 4)
    ∧ win1_0.index t (1 : Fin 3) = 0 ∧ win1_0.index t (2 : Fin 3) = 0
    ∧ win1_1.index t (0 : Fin 3) = win1_2.index t (2 : Fin 4)
    ∧ win1_1.index t (1 : Fin 3) = 0 ∧ win1_1.index t (2 : Fin 3) = 0
    ∧ win1_2.index t (0 : Fin 4) = 0 ∧ win1_2.index t (1 : Fin 4) = 0 ∧ win1_2.index t (3 : Fin 4) = 0
    ∧ win1_2.index t (2 : Fin 4) ≤ 31
    ∧ win1_3.index t (0 : Fin 4) = 0 ∧ win1_3.index t (1 : Fin 4) = 0
    ∧ win1_3.index t (2 : Fin 4) = win1_2.index t (2 : Fin 4) ∧ win1_3.index t (3 : Fin 4) = 0 :=
  (by decide +kernel : ∀ t : Fin grid1.N, _)

/-- Every block of eight features is some grid point's, in both outputs. -/
theorem idx_onto2 : ∀ q : Fin 32, ∃ t : Fin cfg1.N, win1_2.index t = ![0, 0, q.val, 0] :=
  (by decide +kernel : ∀ q : Fin 32, ∃ t : Fin grid1.N, win1_2.index t = ![0, 0, q.val, 0])
theorem idx_onto3 : ∀ q : Fin 32, ∃ t : Fin cfg1.N, win1_3.index t = ![0, 0, q.val, 0] :=
  (by decide +kernel : ∀ q : Fin 32, ∃ t : Fin grid1.N, win1_3.index t = ![0, 0, q.val, 0])

/-! ## The blocks, read at explicit coordinates -/

/-- Entry (p, q, r) of the first operand's block at a point is the operand's entry at feature 8 t + p. -/
theorem read_in0 (c : Dev nD) (t : Fin cfg1.N) (p : Fin 8) (q : Fin 128) (r : Fin 784) :
    iblk1 (F := Ideal) V c 0 t (ix3 p q r) = V c main_v2 (ix3 (⟨win1_2.index t (2 : Fin 4) * 8 + p.val, by have := idx_facts t; omega⟩ : Fin 256) q r) := by
  unfold iblk1
  rw [View.read_apply]
  show V c main_v2 (((cfg1.win 0).blk t).view.emb (ix3 p q r)) = _
  refine congrArg (V c main_v2) ?_
  obtain ⟨e0, e1, e2, -⟩ := idx_facts t
  funext a; apply Fin.ext
  match a with
  | ⟨0, _⟩ => show win1_0.index t (0 : Fin 3) * 8 + 1 * p.val = win1_2.index t (2 : Fin 4) * 8 + p.val; omega
  | ⟨1, _⟩ => show win1_0.index t (1 : Fin 3) * 128 + 1 * q.val = q.val; omega
  | ⟨2, _⟩ => show win1_0.index t (2 : Fin 3) * 784 + 1 * r.val = r.val; omega

/-- … and likewise the second operand's. -/
theorem read_in1 (c : Dev nD) (t : Fin cfg1.N) (p : Fin 8) (q : Fin 128) (r : Fin 784) :
    iblk1 (F := Ideal) V c 1 t (ix3 p q r) = V c main_arg3 (ix3 (⟨win1_2.index t (2 : Fin 4) * 8 + p.val, by have := idx_facts t; omega⟩ : Fin 256) q r) := by
  unfold iblk1
  rw [View.read_apply]
  show V c main_arg3 (((cfg1.win 1).blk t).view.emb (ix3 p q r)) = _
  refine congrArg (V c main_arg3) ?_
  obtain ⟨-, -, -, e0, e1, e2, -⟩ := idx_facts t
  funext a; apply Fin.ext
  match a with
  | ⟨0, _⟩ => show win1_1.index t (0 : Fin 3) * 8 + 1 * p.val = win1_2.index t (2 : Fin 4) * 8 + p.val; omega
  | ⟨1, _⟩ => show win1_1.index t (1 : Fin 3) * 128 + 1 * q.val = q.val; omega
  | ⟨2, _⟩ => show win1_1.index t (2 : Fin 3) * 784 + 1 * r.val = r.val; omega

/-- Entry (p, q, r, n) of the first output's block at a point sits in the array at feature 8 t + r. -/
theorem emb_out2 (t : Fin cfg1.N) (p : Fin 8) (q : Fin 16) (r : Fin 8) (n : Fin 128) :
    ((cfg1.win 2).blk t).view.emb (ix4 p q r n)
      = ix4 p q (⟨win1_2.index t (2 : Fin 4) * 8 + r.val, by have := idx_facts t; omega⟩ : Fin 256) n := by
  obtain ⟨-, -, -, -, -, -, e0, e1, e3, -⟩ := idx_facts t
  funext a; apply Fin.ext
  match a with
  | ⟨0, _⟩ => show win1_2.index t (0 : Fin 4) * 8 + 1 * p.val = p.val; omega
  | ⟨1, _⟩ => show win1_2.index t (1 : Fin 4) * 16 + 1 * q.val = q.val; omega
  | ⟨2, _⟩ => show win1_2.index t (2 : Fin 4) * 8 + 1 * r.val = win1_2.index t (2 : Fin 4) * 8 + r.val; omega
  | ⟨3, _⟩ => show win1_2.index t (3 : Fin 4) * 128 + 1 * n.val = n.val; omega

/-- … and so does the second output's. -/
theorem emb_out3 (t : Fin cfg1.N) (p : Fin 8) (q : Fin 16) (r : Fin 8) (n : Fin 128) :
    ((cfg1.win 3).blk t).view.emb (ix4 p q r n)
      = ix4 p q (⟨win1_2.index t (2 : Fin 4) * 8 + r.val, by have := idx_facts t; omega⟩ : Fin 256) n := by
  obtain ⟨-, -, -, -, -, -, -, -, -, -, e0, e1, e2, e3⟩ := idx_facts t
  funext a; apply Fin.ext
  match a with
  | ⟨0, _⟩ => show win1_3.index t (0 : Fin 4) * 8 + 1 * p.val = p.val; omega
  | ⟨1, _⟩ => show win1_3.index t (1 : Fin 4) * 16 + 1 * q.val = q.val; omega
  | ⟨2, _⟩ => show win1_3.index t (2 : Fin 4) * 8 + 1 * r.val = win1_2.index t (2 : Fin 4) * 8 + r.val; omega
  | ⟨3, _⟩ => show win1_3.index t (3 : Fin 4) * 128 + 1 * n.val = n.val; omega

/-- The distance of two rows of a point's blocks is the distance array's entry at that point's feature. -/
theorem dist_at (c : Dev nD) (t : Fin cfg1.N) (p : Fin 8) (q : Fin 16) (r : Fin 8) (n : Fin 128) :
    Spec.dist (fun k => iblk1 (F := Ideal) V c 0 t (ix3 r (⟨p.val * 16 + q.val, by have := p.isLt; have := q.isLt; omega⟩ : Fin 128) k))
        (fun k => iblk1 (F := Ideal) V c 1 t (ix3 r n k))
      = Spec.xdist (V c main_v2) (V c main_arg3)
          (ix4 p q (⟨win1_2.index t (2 : Fin 4) * 8 + r.val, by have := idx_facts t; omega⟩ : Fin 256) n) := by
  simp only [read_in0 V c t, read_in1 V c t]
  rfl

/-! ## What a point writes back -/

/-- A point's first write-back is its block of the distance array. -/
theorem flushed2_eq (c : Dev nD) (t : Fin cfg1.N) :
    (dat1 (F := Ideal) V c).flushed 2 t
      = ((cfg1.win 2).blk t).view.read (Elt Ideal) (Spec.xdist (V c main_v2) (V c main_arg3)) := by
  show (cfg1.win 2).cut (grid1.coords t) ((dat1 (F := Ideal) V c).after 2 t) = _
  rw [after1_2]
  unfold out1_2
  rw [View.canon_unit_zero hz4]
  simp only [View.ld_unit_zero (S := S8x128x784) hz3]
  funext j
  obtain ⟨p, q, r, n, rfl⟩ : ∃ (p : Fin 8) (q : Fin 16) (r : Fin 8) (n : Fin 128), j = ix4 p q r n :=
    ⟨j 0, j 1, j 2, j 3, eq_ix4 j⟩
  show k1_pay1 (F := Ideal) (iblk1 V c 0 t) (iblk1 V c 1 t) (ix4 p q r n)
    = Spec.xdist (V c main_v2) (V c main_arg3) (((cfg1.win 2).blk t).view.emb (ix4 p q r n))
  rw [emb_out2]
  exact (PayDist.pay_xdist _ _ p q r n).trans (dist_at V c t p q r n)

/-- … and its second write-back its block of the weights: the softmax of the same row of distances. -/
theorem flushed3_eq (c : Dev nD) (t : Fin cfg1.N) :
    (dat1 (F := Ideal) V c).flushed 3 t
      = ((cfg1.win 3).blk t).view.read (Elt Ideal) (Spec.assign (V c main_v2) (V c main_arg3)) := by
  show (cfg1.win 3).cut (grid1.coords t) ((dat1 (F := Ideal) V c).after 3 t) = _
  rw [after1_3]
  unfold out1_3
  rw [View.canon_unit_zero hz4]
  simp only [View.ld_unit_zero (S := S8x128x784) hz3]
  funext j
  obtain ⟨p, q, r, n, rfl⟩ : ∃ (p : Fin 8) (q : Fin 16) (r : Fin 8) (n : Fin 128), j = ix4 p q r n :=
    ⟨j 0, j 1, j 2, j 3, eq_ix4 j⟩
  show k1_pay2 (F := Ideal) (iblk1 V c 0 t) (iblk1 V c 1 t) (ix4 p q r n)
    = Spec.assign (V c main_v2) (V c main_arg3) (((cfg1.win 3).blk t).view.emb (ix4 p q r n))
  rw [emb_out3]
  refine (PaySoft.pay_assign _ _ p q r n).trans ?_
  show Spec.softRow _ n = Spec.softRow _ n
  refine congrArg (fun v => Spec.softRow v n) ?_
  funext n'
  exact (PayDist.pay_xdist _ _ p q r n').trans (dist_at V c t p q r n')

/-! ## The blocks tile the arrays -/

/-- An index of the first output is in a point's block iff each coordinate is in the block's range on its axis. -/
theorem mem_blk2 (t : Fin cfg1.N) (i : S8x16x256x128.Idx) :
    i ∈ ((cfg1.win 2).blk t).view.set ↔ ∀ a : Fin 4, win1_2.index t a * S8x16x8x128.size a ≤ (i a).val
      ∧ (i a).val < win1_2.index t a * S8x16x8x128.size a + S8x16x8x128.size a := by
  show i ∈ ((View.whole main_v3_0).slice (win1_2.rect t)).set ↔ _
  rw [View.set_slice_whole, Rect.mem_set_unit]
  exact Iff.rfl

/-- … and likewise of the second output. -/
theorem mem_blk3 (t : Fin cfg1.N) (i : S8x16x256x128.Idx) :
    i ∈ ((cfg1.win 3).blk t).view.set ↔ ∀ a : Fin 4, win1_3.index t a * S8x16x8x128.size a ≤ (i a).val
      ∧ (i a).val < win1_3.index t a * S8x16x8x128.size a + S8x16x8x128.size a := by
  show i ∈ ((View.whole main_v3_1).slice (win1_3.rect t)).set ↔ _
  rw [View.set_slice_whole, Rect.mem_set_unit]
  exact Iff.rfl

/-- Every index of the first output lies in the block of the point that takes its feature's eight. -/
theorem cover2 (i : S8x16x256x128.Idx) :
    ∃ t : Fin cfg1.N, (cfg1.win 2).flush t = true ∧ i ∈ ((cfg1.win 2).blk t).view.set := by
  have hi0 : (i 0).val < 8 := (i 0).isLt
  have hi1 : (i 1).val < 16 := (i 1).isLt
  have hi2 : (i 2).val < 256 := (i 2).isLt
  have hi3 : (i 3).val < 128 := (i 3).isLt
  obtain ⟨t, ht⟩ := idx_onto2 ⟨(i 2).val / 8, by omega⟩
  have q0 : win1_2.index t (0 : Fin 4) = 0 := congrFun ht 0
  have q1 : win1_2.index t (1 : Fin 4) = 0 := congrFun ht 1
  have q2 : win1_2.index t (2 : Fin 4) = (i 2).val / 8 := congrFun ht 2
  have q3 : win1_2.index t (3 : Fin 4) = 0 := congrFun ht 3
  refine ⟨t, flush1_2 t, ?_⟩
  rw [mem_blk2]
  intro a
  match a with
  | ⟨0, _⟩ => show win1_2.index t (0 : Fin 4) * 8 ≤ (i 0).val ∧ (i 0).val < win1_2.index t (0 : Fin 4) * 8 + 8; omega
  | ⟨1, _⟩ => show win1_2.index t (1 : Fin 4) * 16 ≤ (i 1).val ∧ (i 1).val < win1_2.index t (1 : Fin 4) * 16 + 16; omega
  | ⟨2, _⟩ => show win1_2.index t (2 : Fin 4) * 8 ≤ (i 2).val ∧ (i 2).val < win1_2.index t (2 : Fin 4) * 8 + 8; omega
  | ⟨3, _⟩ => show win1_2.index t (3 : Fin 4) * 128 ≤ (i 3).val ∧ (i 3).val < win1_2.index t (3 : Fin 4) * 128 + 128; omega

/-- … and every index of the second output likewise. -/
theorem cover3 (i : S8x16x256x128.Idx) :
    ∃ t : Fin cfg1.N, (cfg1.win 3).flush t = true ∧ i ∈ ((cfg1.win 3).blk t).view.set := by
  have hi0 : (i 0).val < 8 := (i 0).isLt
  have hi1 : (i 1).val < 16 := (i 1).isLt
  have hi2 : (i 2).val < 256 := (i 2).isLt
  have hi3 : (i 3).val < 128 := (i 3).isLt
  obtain ⟨t, ht⟩ := idx_onto3 ⟨(i 2).val / 8, by omega⟩
  have q0 : win1_3.index t (0 : Fin 4) = 0 := congrFun ht 0
  have q1 : win1_3.index t (1 : Fin 4) = 0 := congrFun ht 1
  have q2 : win1_3.index t (2 : Fin 4) = (i 2).val / 8 := congrFun ht 2
  have q3 : win1_3.index t (3 : Fin 4) = 0 := congrFun ht 3
  refine ⟨t, flush1_3 t, ?_⟩
  rw [mem_blk3]
  intro a
  match a with
  | ⟨0, _⟩ => show win1_3.index t (0 : Fin 4) * 8 ≤ (i 0).val ∧ (i 0).val < win1_3.index t (0 : Fin 4) * 8 + 8; omega
  | ⟨1, _⟩ => show win1_3.index t (1 : Fin 4) * 16 ≤ (i 1).val ∧ (i 1).val < win1_3.index t (1 : Fin 4) * 16 + 16; omega
  | ⟨2, _⟩ => show win1_3.index t (2 : Fin 4) * 8 ≤ (i 2).val ∧ (i 2).val < win1_3.index t (2 : Fin 4) * 8 + 8; omega
  | ⟨3, _⟩ => show win1_3.index t (3 : Fin 4) * 128 ≤ (i 3).val ∧ (i 3).val < win1_3.index t (3 : Fin 4) * 128 + 128; omega

/-! ## The two arrays, whole -/

/-- After the second region its first output is the distance array of its two operands as the region finds them. -/
theorem arr_xdist (c : Dev nD) :
    (dat1 (F := Ideal) V c).arrAt 2 cfg1.N = Spec.xdist (V c main_v2) (V c main_arg3) := by
  exact (dat1 (F := Ideal) V c).arrAt_eq_of_cover 2 _ (fun t _ => flushed2_eq V c t) cover2

/-- … and its second output the softmax weights of those distances. -/
theorem arr_assign (c : Dev nD) :
    (dat1 (F := Ideal) V c).arrAt 3 cfg1.N = Spec.assign (V c main_v2) (V c main_arg3) := by
  exact (dat1 (F := Ideal) V c).arrAt_eq_of_cover 3 _ (fun t _ => flushed3_eq V c t) cover3

end Cert.KernelIdeal.Region1

end
-- ==== Proof.Region2.lean ====
/-
  The third region's output array, whole.
  Grid point t takes features 8 t .. 8 t + 7 of the centres and writes their mutual distances; the 32 points'
  blocks tile the 256 features.
-/
import proofs.«169970_j21612275434146_1_alg».proof.Proof.Gen.KernelIdeal.Frame
import proofs.«169970_j21612275434146_1_alg».proof.Proof.PayDist
import proofs.«169970_j21612275434146_1_alg».proof.Proof.Spec
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the buffer contents when the region is entered: every statement here holds at any such contents
variable (V : (c : Dev nD) → (b : Ref sig .tc) → Buf (Elt Ideal) ((c : Thread nD τ).loc b))

/-- The block rectangles start at the origin of their buffers. -/
theorem hz : (![0, 0, 0] : Fin 3 → Nat) = fun _ => 0 := funext fun a => by fin_cases a <;> rfl

/-- The two windows' block indices over the grid: both move along the feature axis only, together, and stay
    below the 32 blocks of 8 features. -/
theorem idx_facts : ∀ t : Fin cfg2.N, win2_0.index t (0 : Fin 3) = win2_1.index t (0 : Fin 3)
    ∧ win2_0.index t (1 : Fin 3) = 0 ∧ win2_0.index t (2 : Fin 3) = 0
    ∧ win2_1.index t (1 : Fin 3) = 0 ∧ win2_1.index t (2 : Fin 3) = 0
    ∧ win2_1.index t (0 : Fin 3) ≤ 31 :=
  (by decide +kernel : ∀ t : Fin grid2.N, _)

/-- Each of the 32 feature blocks is some grid point's. -/
theorem idx_onto : ∀ q : Fin 32, ∃ t : Fin cfg2.N, win2_1.index t = ![q.val, 0, 0] :=
  (by decide +kernel : ∀ q : Fin 32, ∃ t : Fin grid2.N, win2_1.index t = ![q.val, 0, 0])

/-- Entry (p, q, k) of the centres' block at point t is entry (8 b + p, q, k) of the centres, b the block index of
    the point. -/
theorem read_in (c : Dev nD) (t : Fin cfg2.N) (p : Fin 8) (q : Fin 128) (k : Fin 784) :
    iblk2 (F := Ideal) V c 0 t (ix3 p q k)
      = V c main_arg3 (ix3 (⟨win2_1.index t (0 : Fin 3) * 8 + p.val, by
          have h := (idx_facts t).2.2.2.2.2; have hp := p.isLt; omega⟩ : Fin 256) q k) := by
  obtain ⟨e0, e1, e2, e3, e4, e5⟩ := idx_facts t
  unfold iblk2
  show V c main_arg3 (((cfg2.win 0).blk t).view.emb (ix3 p q k)) = _
  refine congrArg (V c main_arg3) ?_
  funext a; apply Fin.ext
  match a with
  | ⟨0, _⟩ => show win2_0.index t (0 : Fin 3) * 8 + 1 * p.val = win2_1.index t (0 : Fin 3) * 8 + p.val; omega
  | ⟨1, _⟩ => show win2_0.index t (1 : Fin 3) * 128 + 1 * q.val = q.val; omega
  | ⟨2, _⟩ => show win2_0.index t (2 : Fin 3) * 784 + 1 * k.val = k.val; omega

/-- What point t writes back is its block of the centres' mutual distance array. -/
theorem flushed_eq (c : Dev nD) (t : Fin cfg2.N) :
    (dat2 (F := Ideal) V c).flushed 1 t
      = ((cfg2.win 1).blk t).view.read (Elt Ideal) (Spec.cdist (V c main_arg3) (V c main_arg3)) := by
  show (cfg2.win 1).cut (grid2.coords t) ((dat2 (F := Ideal) V c).after 1 t) = _
  rw [after2_1]
  unfold out2_1
  rw [View.canon_unit_zero hz]
  simp only [View.ld_unit_zero (S := S8x128x784) hz]
  funext j
  obtain ⟨p, q, r, rfl⟩ : ∃ (p : Fin 8) (q : Fin 128) (r : Fin 128), j = ix3 p q r := ⟨j 0, j 1, j 2, eq_ix3 j⟩
  refine (PayDist.pay_cdist _ p q r).trans ?_
  show Spec.dist _ _ = Spec.dist _ _
  congr 1 <;> funext k
  · rw [read_in]
    refine congrArg (V c main_arg3) ?_
    funext a; apply Fin.ext
    match a with
    | ⟨0, _⟩ => show win2_1.index t (0 : Fin 3) * 8 + p.val = win2_1.index t (0 : Fin 3) * 8 + 1 * p.val; omega
    | ⟨1, _⟩ => show q.val = win2_1.index t (1 : Fin 3) * 128 + 1 * q.val; have h := (idx_facts t).2.2.2.1; omega
    | ⟨2, _⟩ => rfl
  · rw [read_in]
    refine congrArg (V c main_arg3) ?_
    funext a; apply Fin.ext
    match a with
    | ⟨0, _⟩ => show win2_1.index t (0 : Fin 3) * 8 + p.val = win2_1.index t (0 : Fin 3) * 8 + 1 * p.val; omega
    | ⟨1, _⟩ => show r.val = win2_1.index t (2 : Fin 3) * 128 + 1 * r.val; have h := (idx_facts t).2.2.2.2.1; omega
    | ⟨2, _⟩ => rfl

/-- An index of the output lies in point t's block iff each coordinate lies in the block's range on its axis. -/
theorem mem_blk (t : Fin cfg2.N) (i : S256x128x128.Idx) :
    i ∈ ((cfg2.win 1).blk t).view.set ↔ ∀ a : Fin 3, win2_1.index t a * S8x128x128.size a ≤ (i a).val
      ∧ (i a).val < win2_1.index t a * S8x128x128.size a + S8x128x128.size a := by
  show i ∈ ((View.whole main_v4).slice (win2_1.rect t)).set ↔ _
  rw [View.set_slice_whole, Rect.mem_set_unit]
  exact Iff.rfl

/-- Every index of the output lies in the block of the point that takes its eight features. -/
theorem cover (i : S256x128x128.Idx) :
    ∃ t : Fin cfg2.N, (cfg2.win 1).flush t = true ∧ i ∈ ((cfg2.win 1).blk t).view.set := by
  have hi0 : (i 0).val < 256 := (i 0).isLt
  have hi1 : (i 1).val < 128 := (i 1).isLt
  have hi2 : (i 2).val < 128 := (i 2).isLt
  obtain ⟨t, ht⟩ := idx_onto ⟨(i 0).val / 8, by omega⟩
  have q0 : win2_1.index t (0 : Fin 3) = (i 0).val / 8 := congrFun ht 0
  have q1 : win2_1.index t (1 : Fin 3) = 0 := congrFun ht 1
  have q2 : win2_1.index t (2 : Fin 3) = 0 := congrFun ht 2
  refine ⟨t, flush2_1 t, ?_⟩
  rw [mem_blk]
  intro a
  match a with
  | ⟨0, _⟩ => show win2_1.index t (0 : Fin 3) * 8 ≤ (i 0).val ∧ (i 0).val < win2_1.index t (0 : Fin 3) * 8 + 8; omega
  | ⟨1, _⟩ => show win2_1.index t (1 : Fin 3) * 128 ≤ (i 1).val ∧ (i 1).val < win2_1.index t (1 : Fin 3) * 128 + 128; omega
  | ⟨2, _⟩ => show win2_1.index t (2 : Fin 3) * 128 ≤ (i 2).val ∧ (i 2).val < win2_1.index t (2 : Fin 3) * 128 + 128; omega

/-- After the third region its output is the centres' mutual distance array. -/
theorem arr_cdist (c : Dev nD) :
    (dat2 (F := Ideal) V c).arrAt 1 cfg2.N = Spec.cdist (V c main_arg3) (V c main_arg3) :=
  (dat2 (F := Ideal) V c).arrAt_eq_of_cover 1 _ (fun t _ => flushed_eq V c t) cover

end Cert.KernelIdeal.Region2

end
-- ==== Proof.Boundary.lean ====
/-
  What the kernel program's buffers hold at each segment boundary, named.
  Before the first region the two host reshapes have laid the weight and bias vectors out as one-row matrices and
  nothing else has moved; each region changes only its own output arrays; so the three results at the end are the
  regions' output arrays, each a function of the arrays its region found, and every argument is as launched.
  Chained, the results are the specification's arrays of the four arguments.
-/
import proofs.«169970_j21612275434146_1_alg».proof.Proof.Gen.KernelIdeal.Frame
import proofs.«169970_j21612275434146_1_alg».proof.Proof.Region0
import proofs.«169970_j21612275434146_1_alg».proof.Proof.Region1
import proofs.«169970_j21612275434146_1_alg».proof.Proof.Region2
import proofs.«169970_j21612275434146_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Boundary

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-! ## Before the first region -/

/-- No host operation writes an argument: it is as launched when the first region is entered. -/
theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.Forall, StableHlo.reshape_writes, Finset.mem_singleton]
      repeat' apply And.intro
      all_goals exact StableHlo.devRef_ne_of_ne (by decide)))).trans rfl
theorem W1_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.Forall, StableHlo.reshape_writes, Finset.mem_singleton]
      repeat' apply And.intro
      all_goals exact StableHlo.devRef_ne_of_ne (by decide)))).trans rfl

/-- The weight row the first region reads is the weight vector, reshaped. -/
theorem W1_v0 (c : Dev nD) :
    W1 m ρ c (Proc.devRef .tc main_v0) = shapeCast S1x256 (m ((c : Thread nD τ).loc main_arg1)) shapeCasts_S256_S1x256 := by
  show StableHlo.after hostOps0 (W0 m ρ c) (Proc.devRef .tc main_v0) = _
  after_results
  rfl
/-- The bias row likewise. -/
theorem W1_v1 (c : Dev nD) :
    W1 m ρ c (Proc.devRef .tc main_v1) = shapeCast S1x256 (m ((c : Thread nD τ).loc main_arg2)) shapeCasts_S256_S1x256 := by
  show StableHlo.after hostOps0 (W0 m ρ c) (Proc.devRef .tc main_v1) = _
  after_results
  rfl

/-- Entry k of the one-row matrix is entry k of the vector. -/
theorem row_apply (v : S256.Idx → EReal) (k : Fin 256) : shapeCast S1x256 v shapeCasts_S256_S1x256 (ix2 (0 : Fin 1) k) = v (ix1 k) :=
  shapeCast_apply v shapeCasts_S256_S1x256 (ix2 (0 : Fin 1) k) (ix1 k) (by
    rw [Shape.rowMajor_val_one, Shape.rowMajor_val_two]; show k.val = 0 * 256 + k.val; omega)

theorem V1_v0_row (c : Dev nD) : (fun k : Fin 256 => V1 m ρ c main_v0 (ix2 (0 : Fin 1) k)) = fun k => m ((c : Thread nD τ).loc main_arg1) (ix1 k) :=
  funext fun k => (congrFun (W1_v0 m ρ c) (ix2 (0 : Fin 1) k)).trans (row_apply _ k)
theorem V1_v1_row (c : Dev nD) : (fun k : Fin 256 => V1 m ρ c main_v1 (ix2 (0 : Fin 1) k)) = fun k => m ((c : Thread nD τ).loc main_arg2) (ix1 k) :=
  funext fun k => (congrFun (W1_v1 m ρ c) (ix2 (0 : Fin 1) k)).trans (row_apply _ k)

/-! ## Between the regions -/

/-- The second region finds the first region's output in its first operand, -/
theorem V2_v2 (c : Dev nD) : V2 m ρ c main_v2 = (dat0 (V1 m ρ) c).arrAt 3 cfg0.N := W2_arr m ρ c 3
/-- and the centres as launched in its second. -/
theorem V2_arg3 (c : Dev nD) : V2 m ρ c main_arg3 = m ((c : Thread nD τ).loc main_arg3) :=
  (W2_of_ne m ρ c main_arg3 (by decide)).trans (W1_arg3 m ρ c)
/-- The third region finds the centres as launched: the second region only read them. -/
theorem V3_arg3 (c : Dev nD) : V3 m ρ c main_arg3 = m ((c : Thread nD τ).loc main_arg3) :=
  ((W3_arr m ρ c 1).trans (((dat1 (V2 m ρ) c).arrAt_in 1 rfl _).trans (A_eq1 (V2 m ρ) c 1))).trans (V2_arg3 m ρ c)

/-! ## At the end -/

theorem W4_v3_0 (c : Dev nD) : W4 m ρ c (Proc.devRef .tc main_v3_0) = (dat1 (V2 m ρ) c).arrAt 2 cfg1.N :=
  (W4_of_ne m ρ c main_v3_0 (by decide)).trans (W3_arr m ρ c 2)
theorem W4_v3_1 (c : Dev nD) : W4 m ρ c (Proc.devRef .tc main_v3_1) = (dat1 (V2 m ρ) c).arrAt 3 cfg1.N :=
  (W4_of_ne m ρ c main_v3_1 (by decide)).trans (W3_arr m ρ c 3)
theorem W4_v4 (c : Dev nD) : W4 m ρ c (Proc.devRef .tc main_v4) = (dat2 (V3 m ρ) c).arrAt 1 cfg2.N := W4_arr m ρ c 1

/-! ## The results as functions of the arguments -/

/-- The re-laid normalised input the second region reads is xre of the launched input, weights and bias. -/
theorem V2_v2_eq (c : Dev nD) :
    V2 m ρ c main_v2 = Spec.xre (m ((c : Thread nD τ).loc main_arg0)) (fun k => m ((c : Thread nD τ).loc main_arg1) (ix1 k))
      (fun k => m ((c : Thread nD τ).loc main_arg2) (ix1 k)) := by
  rw [V2_v2, Region0.arr_xre (V1 m ρ) c, V1_v0_row, V1_v1_row]
  exact congrArg (fun X => Spec.xre X _ _) (W1_arg0 m ρ c)

theorem out_xdist (c : Dev nD) :
    W4 m ρ c (Proc.devRef .tc main_v3_0)
      = Spec.xdist (Spec.xre (m ((c : Thread nD τ).loc main_arg0)) (fun k => m ((c : Thread nD τ).loc main_arg1) (ix1 k))
          (fun k => m ((c : Thread nD τ).loc main_arg2) (ix1 k))) (m ((c : Thread nD τ).loc main_arg3)) := by
  rw [W4_v3_0, Region1.arr_xdist (V2 m ρ) c]
  exact congrArg₂ Spec.xdist (V2_v2_eq m ρ c) (V2_arg3 m ρ c)

theorem out_assign (c : Dev nD) :
    W4 m ρ c (Proc.devRef .tc main_v3_1)
      = Spec.assign (Spec.xre (m ((c : Thread nD τ).loc main_arg0)) (fun k => m ((c : Thread nD τ).loc main_arg1) (ix1 k))
          (fun k => m ((c : Thread nD τ).loc main_arg2) (ix1 k))) (m ((c : Thread nD τ).loc main_arg3)) := by
  rw [W4_v3_1, Region1.arr_assign (V2 m ρ) c]
  exact congrArg₂ Spec.assign (V2_v2_eq m ρ c) (V2_arg3 m ρ c)

theorem out_cdist (c : Dev nD) :
    W4 m ρ c (Proc.devRef .tc main_v4) = Spec.cdist (m ((c : Thread nD τ).loc main_arg3)) (m ((c : Thread nD τ).loc main_arg3)) := by
  rw [W4_v4, Region2.arr_cdist (V3 m ρ) c]
  exact congrArg₂ Spec.cdist (V3_arg3 m ρ c) (V3_arg3 m ρ c)

end Cert.KernelIdeal.Boundary

end
-- ==== Proof.RefXre.lean ====
/-
  The reference's normalised, re-laid input is the array xre of the specification.
  The reference normalises every feature row of the whole input at once, moves the feature axis to the front and
  merges (batch, depth) and (height, width) row-major; read at (c, m, s) that is entry c of the normalised row at
  batch m / 16, depth m % 16, height s / 28, width s % 28.
-/
import proofs.«169970_j21612275434146_1_alg».proof.Proof.Gen.ReferenceIdeal.Read
import proofs.«169970_j21612275434146_1_alg».proof.Proof.Spec

noncomputable section

namespace Cert.ReferenceIdeal.RefXre

open Idealize.ShloMosaic Idealize.ShloMosaic.ValueIdx Cert.ReferenceIdeal Cert.ReferenceIdeal.Read

/-- Reading the five-axis broadcast of the mean at any entry of a feature row gives the row's mean:
    the zero initial word adds nothing to the sum over the 256 features. -/
theorem v3_at (x0 : (⟨S8x16x28x28x256, .f32⟩ : BufTy).Contents (Elt Ideal))
    (p : Fin 8) (q : Fin 16) (h w : Fin 28) (c : Fin 256) :
    val_main_v3 (F := Ideal) x0 (idx_main_v4 (ix5 p q h w c)) = Spec.mean (fun k => x0 (ix5 p q h w k)) := by
  rw [val_main_v3_apply, val_main_v1_apply, val_main_v2_apply, val_main_cst_0_apply, val_main_v0_apply,
    val_main_cst_apply]
  simp only [Ideal.hostDivf_def, Ideal.ofBits_def, Ideal.ofBits_zero_f32, zero_add]
  unfold Spec.mean
  refine congrArg (Ideal.div · _) (Finset.sum_congr rfl fun k _ => congrArg x0 ?_)
  funext a
  match a with
  | ⟨0, _⟩ => rfl
  | ⟨1, _⟩ => rfl
  | ⟨2, _⟩ => rfl
  | ⟨3, _⟩ => rfl
  | ⟨4, _⟩ => rfl

/-- The centred entry: the input less its row's mean (the first of the reference's two subtractions). -/
theorem v5_at (x0 : (⟨S8x16x28x28x256, .f32⟩ : BufTy).Contents (Elt Ideal))
    (p : Fin 8) (q : Fin 16) (h w : Fin 28) (c : Fin 256) :
    val_main_v5 (F := Ideal) x0 (ix5 p q h w c)
      = x0 (ix5 p q h w c) - Spec.mean (fun k => x0 (ix5 p q h w k)) := by
  rw [val_main_v5_apply, val_main_v4_apply, v3_at]
  rfl

/-- The second subtraction reads the same mean, so it is the same centred entry. -/
theorem v12_at (x0 : (⟨S8x16x28x28x256, .f32⟩ : BufTy).Contents (Elt Ideal))
    (p : Fin 8) (q : Fin 16) (h w : Fin 28) (c : Fin 256) :
    val_main_v12 (F := Ideal) x0 (ix5 p q h w c)
      = x0 (ix5 p q h w c) - Spec.mean (fun k => x0 (ix5 p q h w k)) := by
  rw [val_main_v12_apply, val_main_v11_apply]
  exact congrArg (x0 (ix5 p q h w c) - ·) (v3_at x0 p q h w c)

/-- The reciprocal square root of the row's variance plus epsilon, read at any entry of the row. -/
theorem v16_at (x0 : (⟨S8x16x28x28x256, .f32⟩ : BufTy).Contents (Elt Ideal))
    (p : Fin 8) (q : Fin 16) (h w : Fin 28) (c : Fin 256) :
    val_main_v16 (F := Ideal) x0 (ix5 p q h w c)
      = Ideal.rsqrt (Ideal.div (∑ k : Fin 256, (x0 (ix5 p q h w k) - Spec.mean (fun k => x0 (ix5 p q h w k)))
          * (x0 (ix5 p q h w k) - Spec.mean (fun k => x0 (ix5 p q h w k)))) Spec.c256 + Spec.epsLn) := by
  rw [val_main_v16_apply, val_main_v15_apply, val_main_v14_apply, val_main_v10_apply, val_main_v13_apply,
    val_main_cst_3_apply, val_main_v8_apply, val_main_v9_apply, val_main_cst_2_apply, val_main_v7_apply,
    val_main_cst_1_apply]
  simp only [Ideal.hostDivf_def, Ideal.hostUnary_rsqrt_def, Ideal.addf_def, Ideal.ofBits_def,
    Ideal.ofBits_zero_f32, zero_add]
  refine congrArg (fun t => Ideal.rsqrt (Ideal.div t _ + _)) (Finset.sum_congr rfl fun k _ => ?_)
  rw [val_main_v6_apply]
  have e : idx_main_v7 (idx_main_v8 (idx_main_v16 (ix5 p q h w c))) k = ix5 p q h w k := by
    funext a
    match a with
    | ⟨0, _⟩ => rfl
    | ⟨1, _⟩ => rfl
    | ⟨2, _⟩ => rfl
    | ⟨3, _⟩ => rfl
    | ⟨4, _⟩ => rfl
  rw [e, v5_at]
  rfl

/-- The layer norm's result at (p, q, h, w, c) is entry c of the normalised feature row at (p, q, h, w). -/
theorem v23_at (x0 : (⟨S8x16x28x28x256, .f32⟩ : BufTy).Contents (Elt Ideal)) (x1 x2 : (⟨S256, .f32⟩ : BufTy).Contents (Elt Ideal))
    (p : Fin 8) (q : Fin 16) (h w : Fin 28) (c : Fin 256) :
    val_main_v23 (F := Ideal) x0 x1 x2 (ix5 p q h w c)
      = Spec.lnRow (fun k => x0 (ix5 p q h w k)) (fun k => x1 (ix1 k)) (fun k => x2 (ix1 k)) c := by
  rw [val_main_v23_apply, val_main_v20_apply, val_main_v22_apply, val_main_v21_apply, val_main_v17_apply,
    val_main_v19_apply, val_main_v18_apply, v12_at, v16_at]
  have e1 : idx_main_v18 (idx_main_v19 (ix5 p q h w c)) = ix1 c := by
    funext a
    match a with
    | ⟨0, _⟩ => rfl
  have e2 : idx_main_v21 (idx_main_v22 (ix5 p q h w c)) = ix1 c := by
    funext a
    match a with
    | ⟨0, _⟩ => rfl
  rw [e1, e2]
  rfl

/-- The transpose and the row-major reshape read the layer norm's result at batch m / 16, depth m % 16,
    height s / 28, width s % 28 and feature c. -/
theorem idx_v24_v25 (c : Fin 256) (m : Fin 128) (s : Fin 784) :
    idx_main_v24 (idx_main_v25 (ix3 c m s))
      = ix5 (⟨m.val / 16, by have := m.isLt; omega⟩ : Fin 8) (⟨m.val % 16, by omega⟩ : Fin 16)
          (⟨s.val / 28, by have := s.isLt; omega⟩ : Fin 28) (⟨s.val % 28, by omega⟩ : Fin 28) c := by
  have hc := c.isLt
  have hm := m.isLt
  have hs := s.isLt
  funext a
  apply Fin.ext
  match a with
  | ⟨0, _⟩ => show ((c.val * 128 + m.val) * 784 + s.val) / 12544 % 8 = m.val / 16; omega
  | ⟨1, _⟩ => show ((c.val * 128 + m.val) * 784 + s.val) / 784 % 16 = m.val % 16; omega
  | ⟨2, _⟩ => show ((c.val * 128 + m.val) * 784 + s.val) / 28 % 28 = s.val / 28; omega
  | ⟨3, _⟩ => show ((c.val * 128 + m.val) * 784 + s.val) % 28 = s.val % 28; omega
  | ⟨4, _⟩ => show ((c.val * 128 + m.val) * 784 + s.val) / 100352 = c.val; omega

/-- The reference's stage after the layer norm, the transpose and the reshape is xre of the input, the weights and the bias. -/
theorem ref_xre (x0 : (⟨S8x16x28x28x256, .f32⟩ : BufTy).Contents (Elt Ideal)) (x1 x2 : (⟨S256, .f32⟩ : BufTy).Contents (Elt Ideal)) :
    val_main_v25 (F := Ideal) x0 x1 x2 = Spec.xre x0 (fun k => x1 (ix1 k)) (fun k => x2 (ix1 k)) := by
  funext i
  obtain ⟨c, m, s, rfl⟩ : ∃ (c : Fin 256) (m : Fin 128) (s : Fin 784), i = ix3 c m s := ⟨i 0, i 1, i 2, eq_ix3 i⟩
  rw [val_main_v25_apply, val_main_v24_apply, idx_v24_v25, v23_at]
  rfl

end Cert.ReferenceIdeal.RefXre

end
-- ==== Proof.RefDist.lean ====
/-
  The reference's three results as the specification's arrays of whatever its re-laid input is.
  The reference takes squared norms, one batched product and the floored square root over whole arrays; read at an
  index each is the distance of two rows.  Its softmax over the last axis is the specification's, row by row.
-/
import proofs.«169970_j21612275434146_1_alg».proof.Proof.Gen.ReferenceIdeal.Read
import proofs.«169970_j21612275434146_1_alg».proof.Proof.Spec

noncomputable section

namespace Cert.ReferenceIdeal.RefDist

open Idealize.ShloMosaic Idealize.ShloMosaic.ValueIdx Cert.ReferenceIdeal Cert.ReferenceIdeal.Read

/-! ### The composed index maps at explicit coordinates -/

theorem idx_sqL_c (c : Fin 256) (m n : Fin 128) (k : Fin 784) :
    idx_main_v58 (idx_main_v59 (idx_main_v63 (ix3 c m n))) k = ix3 c m k := by
  funext a; match a with | ⟨0, _⟩ => rfl | ⟨1, _⟩ => rfl | ⟨2, _⟩ => rfl

theorem idx_sqR_c (c : Fin 256) (m n : Fin 128) (k : Fin 784) :
    idx_main_v61 (idx_main_v62 (idx_main_v64 (ix3 c m n))) k = ix3 c n k := by
  funext a; match a with | ⟨0, _⟩ => rfl | ⟨1, _⟩ => rfl | ⟨2, _⟩ => rfl

theorem idx_dotL_c (c : Fin 256) (m n : Fin 128) (k : Fin 784) :
    lidx_main_v66 (ix3 c m n) k = ix3 c m k := by
  funext a; match a with | ⟨0, _⟩ => rfl | ⟨1, _⟩ => rfl | ⟨2, _⟩ => rfl

theorem idx_dotR_c (c : Fin 256) (m n : Fin 128) (k : Fin 784) :
    ridx_main_v66 (ix3 c m n) k = ix3 c n k := by
  funext a; match a with | ⟨0, _⟩ => rfl | ⟨1, _⟩ => rfl | ⟨2, _⟩ => rfl

/-- Row `16 p + q` of the merged (batch, depth) axis. -/
def mergedRow (p : Fin 8) (q : Fin 16) : Fin 128 := ⟨p.val * 16 + q.val, by have hp := p.isLt; have hq := q.isLt; omega⟩

/-- Splitting the merged row axis and moving the feature axis last-but-one reads feature `c`, row `16 p + q`. -/
theorem idx_cast_x (p : Fin 8) (q : Fin 16) (c : Fin 256) (n : Fin 128) :
    idx_main_v42 (idx_main_v43 (ix4 p q c n)) = ix3 c (mergedRow p q) n := by
  have hp := p.isLt; have hq := q.isLt; have hc := c.isLt; have hn := n.isLt
  funext a; apply Fin.ext
  match a with
  | ⟨0, _⟩ => show (((c.val * 8 + p.val) * 16 + q.val) * 128 + n.val) / 16384 = c.val; omega
  | ⟨1, _⟩ => show (((c.val * 8 + p.val) * 16 + q.val) * 128 + n.val) / 128 % 128 = p.val * 16 + q.val; omega
  | ⟨2, _⟩ => show (((c.val * 8 + p.val) * 16 + q.val) * 128 + n.val) % 128 = n.val; omega

theorem idx_sqL_x (c : Fin 256) (m n : Fin 128) (k : Fin 784) :
    idx_main_v27 (idx_main_v28 (idx_main_v32 (ix3 c m n))) k = ix3 c m k := by
  funext a; match a with | ⟨0, _⟩ => rfl | ⟨1, _⟩ => rfl | ⟨2, _⟩ => rfl

theorem idx_sqR_x (c : Fin 256) (m n : Fin 128) (k : Fin 784) :
    idx_main_v30 (idx_main_v31 (idx_main_v33 (ix3 c m n))) k = ix3 c n k := by
  funext a; match a with | ⟨0, _⟩ => rfl | ⟨1, _⟩ => rfl | ⟨2, _⟩ => rfl

theorem idx_dotL_x (c : Fin 256) (m n : Fin 128) (k : Fin 784) :
    lidx_main_v35 (ix3 c m n) k = ix3 c m k := by
  funext a; match a with | ⟨0, _⟩ => rfl | ⟨1, _⟩ => rfl | ⟨2, _⟩ => rfl

theorem idx_dotR_x (c : Fin 256) (m n : Fin 128) (k : Fin 784) :
    ridx_main_v35 (ix3 c m n) k = ix3 c n k := by
  funext a; match a with | ⟨0, _⟩ => rfl | ⟨1, _⟩ => rfl | ⟨2, _⟩ => rfl

/-- The first result: the distances from the re-laid input's rows to the centres, axes (batch, depth, feature, centre). -/
theorem ref_xdist (x0 : (⟨S8x16x28x28x256, .f32⟩ : BufTy).Contents (Elt Ideal)) (x1 x2 : (⟨S256, .f32⟩ : BufTy).Contents (Elt Ideal))
    (x3 : (⟨S256x128x784, .f32⟩ : BufTy).Contents (Elt Ideal)) :
    val_main_v43 (F := Ideal) x0 x1 x2 x3 = Spec.xdist (val_main_v25 (F := Ideal) x0 x1 x2) x3 := by
  funext i
  obtain ⟨p, q, c, n, rfl⟩ : ∃ p q c n, i = ix4 p q c n := ⟨_, _, _, _, eq_ix4 i⟩
  rw [val_main_v43_apply, val_main_v42_apply, idx_cast_x, val_main_v41_apply, val_main_v40_apply, val_main_v39_apply,
    val_main_cst_7_apply, val_main_v38_apply, val_main_v34_apply, val_main_v32_apply, val_main_v28_apply,
    val_main_v27_apply, val_main_v33_apply, val_main_v31_apply, val_main_v30_apply, val_main_v37_apply,
    val_main_v36_apply, val_main_cst_6_apply, val_main_v35_apply, val_main_cst_4_apply, val_main_cst_5_apply]
  simp only [val_main_v26_apply, val_main_v29_apply, idx_sqL_x, idx_sqR_x, idx_dotL_x, idx_dotR_x,
    Ideal.ofBits_def, Ideal.ofBits_zero_f32, zero_add, Ideal.mulf_def, Ideal.addf_def, Ideal.subf_def,
    Ideal.maximumf_def, Ideal.hostUnary_sqrt_def]
  generalize val_main_v25 (F := Ideal) x0 x1 x2 = A
  rfl

/-! ### The softmax over the centre axis, row by row -/

theorem idx_row_max (p : Fin 8) (q : Fin 16) (c : Fin 256) (n : Fin 128) :
    idx_main_v49 (idx_main_v50 (ix4 p q c n)) = ix3 p q c := by
  funext a; match a with | ⟨0, _⟩ => rfl | ⟨1, _⟩ => rfl | ⟨2, _⟩ => rfl

theorem idx_row_sum (p : Fin 8) (q : Fin 16) (c : Fin 256) (n : Fin 128) :
    idx_main_v54 (idx_main_v55 (ix4 p q c n)) = ix3 p q c := by
  funext a; match a with | ⟨0, _⟩ => rfl | ⟨1, _⟩ => rfl | ⟨2, _⟩ => rfl

theorem idx_sum_k (p : Fin 8) (q : Fin 16) (c : Fin 256) (k : Fin 128) :
    idx_main_v53 (ix3 p q c) k = ix4 p q c k := by
  funext a; match a with | ⟨0, _⟩ => rfl | ⟨1, _⟩ => rfl | ⟨2, _⟩ => rfl | ⟨3, _⟩ => rfl

/-- The running maximum of row (p, q, c): the fold of `max` from -infinity over the 128 scaled distances. -/
theorem max_at (x0 : (⟨S8x16x28x28x256, .f32⟩ : BufTy).Contents (Elt Ideal)) (x1 x2 : (⟨S256, .f32⟩ : BufTy).Contents (Elt Ideal))
    (x3 : (⟨S256x128x784, .f32⟩ : BufTy).Contents (Elt Ideal)) (p : Fin 8) (q : Fin 16) (c : Fin 256) :
    val_main_v46 (F := Ideal) x0 x1 x2 x3 (ix3 p q c)
      = (Finset.univ : Finset (Fin 128)).fold max Spec.negInf
          (fun k => Spec.negAlpha * val_main_v43 (F := Ideal) x0 x1 x2 x3 (ix4 p q c k)) := by
  have h : S8x16x256x128.Reduces [3] S8x16x256 := by decide
  unfold val_main_v46
  refine (Host.reduce_eq_fold_single FloatOps.maximumf _ _ Facts₀.reducesTo_S8x16x256x128_S8x16x256_d3 h Facts₀.h_S_ (ix3 p q c)).trans ?_
  have hf : (val_main_v45 (F := Ideal) x0 x1 x2 x3 ∘ h.lift (ix3 p q c))
      = fun k : Fin 128 => Spec.negAlpha * val_main_v43 (F := Ideal) x0 x1 x2 x3 (ix4 p q c k) := by
    refine funext fun (k : Fin 128) => ?_
    have e : h.lift (ix3 p q c) k = ix4 p q c k := by
      funext a; apply Fin.ext
      match a with | ⟨0, _⟩ => rfl | ⟨1, _⟩ => rfl | ⟨2, _⟩ => rfl | ⟨3, _⟩ => rfl
    show val_main_v45 (F := Ideal) x0 x1 x2 x3 (h.lift (ix3 p q c) k) = _
    rw [e, val_main_v45_apply, val_main_v44_apply, val_main_cst_8_apply]
    rfl
  generalize val_main_v43 (F := Ideal) x0 x1 x2 x3 = D at hf ⊢
  generalize val_main_v45 (F := Ideal) x0 x1 x2 x3 = E at hf ⊢
  exact congrArg (fun f => Finset.fold max Spec.negInf f (Finset.univ : Finset (Fin 128))) hf

/-- Entry (p, q, c, k) of the exponentials: the exponential of the row's shifted entry k. -/
theorem exp_at (x0 : (⟨S8x16x28x28x256, .f32⟩ : BufTy).Contents (Elt Ideal)) (x1 x2 : (⟨S256, .f32⟩ : BufTy).Contents (Elt Ideal))
    (x3 : (⟨S256x128x784, .f32⟩ : BufTy).Contents (Elt Ideal)) (p : Fin 8) (q : Fin 16) (c : Fin 256) (k : Fin 128) :
    val_main_v52 (F := Ideal) x0 x1 x2 x3 (ix4 p q c k)
      = Ideal.exp (Spec.shifted (fun n' => val_main_v43 (F := Ideal) x0 x1 x2 x3 (ix4 p q c n')) k) := by
  rw [val_main_v52_apply, val_main_v51_apply, val_main_v45_apply, val_main_v44_apply, val_main_cst_8_apply,
    val_main_v50_apply, val_main_v49_apply, idx_row_max, val_main_v48_apply, val_main_v47_apply,
    val_main_cst_10_apply, max_at]
  generalize val_main_v43 (F := Ideal) x0 x1 x2 x3 = D
  rfl

/-- Entry (p, q, c, n) of the second result is the softmax weight of entry n in the row of 128 distances at (p, q, c). -/
theorem soft_at (x0 : (⟨S8x16x28x28x256, .f32⟩ : BufTy).Contents (Elt Ideal)) (x1 x2 : (⟨S256, .f32⟩ : BufTy).Contents (Elt Ideal))
    (x3 : (⟨S256x128x784, .f32⟩ : BufTy).Contents (Elt Ideal)) (p : Fin 8) (q : Fin 16) (c : Fin 256) (n : Fin 128) :
    val_main_v56 (F := Ideal) x0 x1 x2 x3 (ix4 p q c n)
      = Spec.softRow (fun n' => val_main_v43 (F := Ideal) x0 x1 x2 x3 (ix4 p q c n')) n := by
  rw [val_main_v56_apply, val_main_v55_apply, val_main_v54_apply, idx_row_sum, val_main_v53_apply, val_main_cst_11_apply,
    exp_at, Ideal.ofBits_def, Ideal.ofBits_zero_f32, zero_add]
  have hs : ∀ k : Fin 128, val_main_v52 (F := Ideal) x0 x1 x2 x3 (idx_main_v53 (ix3 p q c) k)
      = Ideal.exp (Spec.shifted (fun n' => val_main_v43 (F := Ideal) x0 x1 x2 x3 (ix4 p q c n')) k) := fun k => by
    rw [idx_sum_k, exp_at]
  rw [Finset.sum_congr rfl fun k _ => hs k]
  rfl

/-- The second result: the softmax weights of those distances. -/
theorem ref_assign (x0 : (⟨S8x16x28x28x256, .f32⟩ : BufTy).Contents (Elt Ideal)) (x1 x2 : (⟨S256, .f32⟩ : BufTy).Contents (Elt Ideal))
    (x3 : (⟨S256x128x784, .f32⟩ : BufTy).Contents (Elt Ideal)) :
    val_main_v56 (F := Ideal) x0 x1 x2 x3 = Spec.assign (val_main_v25 (F := Ideal) x0 x1 x2) x3 := by
  funext i
  obtain ⟨p, q, c, n, rfl⟩ : ∃ p q c n, i = ix4 p q c n := ⟨_, _, _, _, eq_ix4 i⟩
  rw [soft_at, ref_xdist]
  generalize val_main_v25 (F := Ideal) x0 x1 x2 = A
  rfl

/-- The third result: the distances among the centres. -/
theorem ref_cdist (x3 : (⟨S256x128x784, .f32⟩ : BufTy).Contents (Elt Ideal)) :
    val_main_v72 (F := Ideal) x3 = Spec.cdist x3 x3 := by
  funext i
  obtain ⟨c, m, n, rfl⟩ : ∃ c m n, i = ix3 c m n := ⟨_, _, _, eq_ix3 i⟩
  rw [val_main_v72_apply, val_main_v71_apply, val_main_v70_apply, val_main_cst_15_apply, val_main_v69_apply,
    val_main_v65_apply, val_main_v63_apply, val_main_v59_apply, val_main_v58_apply, val_main_v64_apply,
    val_main_v62_apply, val_main_v61_apply, val_main_v68_apply, val_main_v67_apply, val_main_cst_14_apply,
    val_main_v66_apply, val_main_cst_12_apply, val_main_cst_13_apply]
  simp only [val_main_v57_apply, val_main_v60_apply, idx_sqL_c, idx_sqR_c, idx_dotL_c, idx_dotR_c,
    Ideal.ofBits_def, Ideal.ofBits_zero_f32, zero_add, Ideal.mulf_def, Ideal.addf_def, Ideal.subf_def,
    Ideal.maximumf_def, Ideal.hostUnary_sqrt_def]
  rfl

end Cert.ReferenceIdeal.RefDist

end
-- ==== Proof.lean ====
/-
  The certificate: a three-kernel program (a layer norm written out with the feature axis first; the distances of
  its rows to a set of cluster centres with their softmax weights; the centres' mutual distances) against the
  plain array program that computes the same three results.

  Over the extended reals both programs compute, index by index, the arrays of the specification: every feature
  row of the input is normalised with the same mean, variance and reciprocal square root; a distance is
  sqrt (max (|a|^2 + |b|^2 - 2 <a, b>) eps') with each of the three sums taken over the same 784 positions, whether a
  kernel forms them block by block with one matrix product per block or the array program with one batched product;
  the softmax subtracts the same row maximum and divides by the same row sum.  The kernels' narrowing of the product's
  operands to sixteen bits is the identity on the extended reals.  No law beyond reindexing a finite sum is used, so the
  finiteness of the inputs is never opened.

  The kernel program's run is the generated frame's launch with the results named; the regions' outputs are read off
  its proof data block by block; the array program's run is the generated one, read stage by stage.
-/
import proofs.«169970_j21612275434146_1_alg».proof.Defs
import proofs.«169970_j21612275434146_1_alg».proof.Proof.Gen.Kernel
import proofs.«169970_j21612275434146_1_alg».proof.Proof.Gen.Kernel.Skeleton
import proofs.«169970_j21612275434146_1_alg».proof.Proof.Gen.Kernel.Launch
import proofs.«169970_j21612275434146_1_alg».proof.Proof.Gen.Kernel.Points
import proofs.«169970_j21612275434146_1_alg».proof.Proof.Gen.Kernel.Frame
import proofs.«169970_j21612275434146_1_alg».proof.Proof.Gen.KernelIdeal
import proofs.«169970_j21612275434146_1_alg».proof.Proof.Gen.KernelIdeal.Skeleton
import proofs.«169970_j21612275434146_1_alg».proof.Proof.Gen.KernelIdeal.Launch
import proofs.«169970_j21612275434146_1_alg».proof.Proof.Gen.KernelIdeal.Points
import proofs.«169970_j21612275434146_1_alg».proof.Proof.Gen.KernelIdeal.Frame
import proofs.«169970_j21612275434146_1_alg».proof.Proof.Gen.ReferenceIdeal
import proofs.«169970_j21612275434146_1_alg».proof.Proof.Gen.Pre_finite_inputs
import proofs.«169970_j21612275434146_1_alg».proof.Proof.Gen.ReferenceIdeal.Run
import proofs.«169970_j21612275434146_1_alg».proof.Proof.Gen.ReferenceIdeal.Read
import proofs.«169970_j21612275434146_1_alg».proof.Proof.KernelRun
import proofs.«169970_j21612275434146_1_alg».proof.Proof.Boundary
import proofs.«169970_j21612275434146_1_alg».proof.Proof.RefXre
import proofs.«169970_j21612275434146_1_alg».proof.Proof.RefDist
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program terminates without a fault and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The array program's frame is its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealisation rewrote nothing. -/
theorem preserves : Cert.preserves_Kernel_KernelIdeal := trivial

/-- From memories that agree on the four arguments both programs end with the specification's three arrays of
    those arguments: the distances of the normalised input's rows to the centres, their softmax weights, and the
    centres' mutual distances. -/
theorem algebraic : Cert.algebraic_KernelIdeal_ReferenceIdeal := by
  intro m ρ m' ρ' _ hagree
  refine ⟨fun c => Spec.xdist (Spec.xre (m ((c.tc : Thread Cert.KernelIdeal.nD Cert.KernelIdeal.τ).loc Cert.KernelIdeal.main_arg0))
        (fun k => m ((c.tc : Thread Cert.KernelIdeal.nD Cert.KernelIdeal.τ).loc Cert.KernelIdeal.main_arg1) (ix1 k))
        (fun k => m ((c.tc : Thread Cert.KernelIdeal.nD Cert.KernelIdeal.τ).loc Cert.KernelIdeal.main_arg2) (ix1 k)))
        (m ((c.tc : Thread Cert.KernelIdeal.nD Cert.KernelIdeal.τ).loc Cert.KernelIdeal.main_arg3)),
    fun c => Spec.assign (Spec.xre (m ((c.tc : Thread Cert.KernelIdeal.nD Cert.KernelIdeal.τ).loc Cert.KernelIdeal.main_arg0))
        (fun k => m ((c.tc : Thread Cert.KernelIdeal.nD Cert.KernelIdeal.τ).loc Cert.KernelIdeal.main_arg1) (ix1 k))
        (fun k => m ((c.tc : Thread Cert.KernelIdeal.nD Cert.KernelIdeal.τ).loc Cert.KernelIdeal.main_arg2) (ix1 k)))
        (m ((c.tc : Thread Cert.KernelIdeal.nD Cert.KernelIdeal.τ).loc Cert.KernelIdeal.main_arg3)),
    fun c => Spec.cdist (m ((c.tc : Thread Cert.KernelIdeal.nD Cert.KernelIdeal.τ).loc Cert.KernelIdeal.main_arg3))
        (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Boundary.out_xdist m ρ c),
        (h c).2.1.trans (Cert.KernelIdeal.Boundary.out_assign m ρ c),
        (h c).2.2.1.trans (Cert.KernelIdeal.Boundary.out_cdist m ρ c), (h c).2.2.2⟩)
      (Cert.KernelIdeal.Run.run_named (F := Ideal) m ρ)
  · refine (θ_run Cert.ReferenceIdeal.defs _ _).mono
      (fun _ h c => ⟨(h c).1.trans ?_, (h c).2.1.trans ?_, (h c).2.2.1.trans ?_, (h c).2.2.2⟩)
      (Cert.ReferenceIdeal.Value.run (F := Ideal) m' ρ')
    · rw [Cert.ReferenceIdeal.Read.val_main_v43_eq, Cert.ReferenceIdeal.RefDist.ref_xdist, Cert.ReferenceIdeal.RefXre.ref_xre,
        (hagree c).1, (hagree c).2.1, (hagree c).2.2.1, (hagree c).2.2.2]
    · rw [Cert.ReferenceIdeal.Read.val_main_v56_eq, Cert.ReferenceIdeal.RefDist.ref_assign, Cert.ReferenceIdeal.RefXre.ref_xre,
        (hagree c).1, (hagree c).2.1, (hagree c).2.2.1, (hagree c).2.2.2]
    · rw [Cert.ReferenceIdeal.Read.val_main_v72_eq, Cert.ReferenceIdeal.RefDist.ref_cdist, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
